-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S1048576 : Shape := ⟨1, ![1048576]⟩
abbrev S32 : Shape := ⟨1, ![32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S32 : S_.BroadcastsInDim S32 (![] : Fin 0 → Fin S32.rank)
  reducesTo_S32_S_d0 : S32.ReducesTo [0] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1048576x32 .f32) (main_arg1 : IVec S1048576 32) (main_arg2 : FVec F S32 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S32 .f32 := Host.absf main_arg2
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg1 main_v9
  let main_c_3 : IVec S_ 1 := constantI S_ 1 1#1
  let main_v11 : IVec S_ 1 := (fun x v => Host.reduce IntOp.andi x v reducesTo_S1048576_S_d0 h_S_) main_v10 main_c_3
  let main_v12 : IVec S_ 1 := andi main_v8 main_v11
  let main_c_4 : IVec S_ 32 := constantI S_ 32 32#32
  let main_v13 : IVec S1048576 32 := broadcastInDim S1048576 ![] bcast_S_S1048576 main_c_4
  let main_v14 : IVec S1048576 1 := cmpi .slt main_arg1 main_v13
  let main_c_5 : IVec S_ 1 := constantI S_ 1 1#1
  let main_v15 : IVec S_ 1 := (fun x v => Host.reduce IntOp.andi x v reducesTo_S1048576_S_d0 h_S_) main_v14 main_c_5
  fn_part1 (F := F) main_v12 main_v15
-- ==== Kernel.lean ====
abbrev S1048576x32 : Shape := ⟨2, ![1048576, 32]⟩
abbrev S1048576 : Shape := ⟨1, ![1048576]⟩
abbrev S32 : Shape := ⟨1, ![32]⟩
abbrev S1x1 : Shape := ⟨2, ![1, 1]⟩
abbrev S8192x32 : Shape := ⟨2, ![8192, 32]⟩
abbrev S8192 : Shape := ⟨1, ![8192]⟩
abbrev S8192x1 : Shape := ⟨2, ![8192, 1]⟩
abbrev S1x32 : Shape := ⟨2, ![1, 32]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S1048576x32, .f32⟩
  | .hbm, ⟨1, _⟩ => ⟨S1048576, .i32⟩
  | .hbm, ⟨2, _⟩ => ⟨S32, .f32⟩
  | .hbm, ⟨3, _⟩ => ⟨S1x1, .f32⟩
  | .hbm, ⟨4, _⟩ => ⟨S_, .f32⟩
  | .local _ .vmem, ⟨0, _⟩ => ⟨S8192x32, .f32⟩
  | .local _ .vmem, ⟨1, _⟩ => ⟨S8192x32, .f32⟩
  | .local _ .vmem, ⟨2, _⟩ => ⟨S8192, .i32⟩
  | .local _ .vmem, ⟨3, _⟩ => ⟨S8192, .i32⟩
  | .local _ .vmem, ⟨4, _⟩ => ⟨S32, .f32⟩
  | .local _ .vmem, ⟨5, _⟩ => ⟨S1x1, .f32⟩
  | .local _ .vmem, ⟨6, _⟩ => ⟨S1x1, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v50 : BitVec 1 := Scalar.cmpi .eq arg0 c127_i32
  let v51 : BitVec 32 := Scalar.extui v50
  let c0_i32_18 : BitVec 32 := 0#32
  let v52 : BitVec 1 := Scalar.cmpi .ne v51 c0_i32_18
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x32_S8192x32_0_0 : ∀ a, (![0, 0] : Fin 2 → Nat) a + S8192x32.size a ≤ S8192x32.size a
  h_S8192x32 : 0 < S8192x32.numel
  inb_S8192_S8192_0 : ∀ a, (![0] : Fin 1 → Nat) a + S8192.size a ≤ S8192.size a
  h_S8192 : 0 < S8192.numel
  shapeCasts_S8192_S8192x1 : S8192.ShapeCasts S8192x1
  inb_S32_S32_0 : ∀ a, (![0] : Fin 1 → Nat) a + S32.size a ≤ S32.size a
  h_S32 : 0 < S32.numel
  shapeCasts_S32_S1x32 : S32.ShapeCasts S1x32
  reduces_S8192x32_S8192 : S8192x32.Reduces [1] S8192
  broadcasts_S8192x1_S8192x32 : S8192x1.Broadcasts S8192x32
  iota_S8192x32_d1_w32 : S8192x32.Iotas .tc 32 [1]
  shapeCasts_S1x32_S1x32 : S1x32.ShapeCasts S1x32
  broadcasts_S1x32_S8192x32 : S1x32.Broadcasts S8192x32
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1048576.size a
  hwx0_1 : ∀ i : grid0.Coords, EltTy.bits .i32 = 32 ∨ (Rect.block (s := S1048576) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1048576x32 : Shape := ⟨2, ![1048576, 32]⟩
abbrev S1048576 : Shape := ⟨1, ![1048576]⟩
abbrev S32 : Shape := ⟨1, ![32]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576, .i32⟩
  | .hbm, ⟨2, _⟩ => ⟨S32, .f32⟩
  | .hbm, ⟨3, _⟩ => ⟨S_, .f32⟩
  | .hbm, ⟨4, _⟩ => ⟨S1048576, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576x1, .f32⟩
  | .hbm, ⟨9, _⟩ => ⟨S1048576x32, .f32⟩
  | .hbm, ⟨10, _⟩ => ⟨S1048576x32, .f32⟩
  | .hbm, ⟨11, _⟩ => ⟨S1048576x32, .f32⟩
  | .hbm, ⟨12, _⟩ => ⟨S_, .f32⟩
  | .hbm, ⟨13, _⟩ => ⟨S1048576, .f32⟩
  | .hbm, ⟨14, _⟩ => ⟨S1048576x1, .f32⟩
  | .hbm, ⟨15, _⟩ => ⟨S1048576x1, .f32⟩
  | .hbm, ⟨16, _⟩ => ⟨S1048576x32, .f32⟩
  | .hbm, ⟨17, _⟩ => ⟨S1048576x32, .f32⟩
  | .hbm, ⟨18, _⟩ => ⟨S1048576x1, .i32⟩
  | .hbm, ⟨19, _⟩ => ⟨S_, .i32⟩
  | .hbm, ⟨20, _⟩ => ⟨S1048576x1, .i32⟩
  | .hbm, ⟨21, _⟩ => ⟨S1048576x1, .i1⟩
  | .hbm, ⟨22, _⟩ => ⟨S_, .i32⟩
  | .hbm, ⟨23, _⟩ => ⟨S1048576x1, .i32⟩
  | .hbm, ⟨24, _⟩ => ⟨S1048576x1, .i32⟩
  | .hbm, ⟨25, _⟩ => ⟨S1048576x1, .i32⟩
  | .hbm, ⟨26, _⟩ => ⟨S1048576x1x1, .i32⟩
  | .hbm, ⟨27, _⟩ => ⟨S1, .i32⟩
  | .hbm, ⟨28, _⟩ => ⟨S_, .i32⟩
  | .hbm, ⟨29, _⟩ => ⟨S1048576x1x1, .i32⟩
  | .hbm, ⟨30, _⟩ => ⟨S1048576x1x1, .i1⟩
  | .hbm, ⟨31, _⟩ => ⟨S1x1x1, .i32⟩
  | .hbm, ⟨32, _⟩ => ⟨S1048576x1x1, .i32⟩
  | .hbm, ⟨33, _⟩ => ⟨S1048576x1x1, .i1⟩
  | .hbm, ⟨34, _⟩ => ⟨S1048576x1x1, .i1⟩
  | .hbm, ⟨35, _⟩ => ⟨S_, .i1⟩
  | .hbm, ⟨36, _⟩ => ⟨S1048576x1, .i1⟩
  | .hbm, ⟨37, _⟩ => ⟨S1048576x1, .f32⟩
  | .hbm, ⟨38, _⟩ => ⟨S_, .f32⟩
  | .hbm, ⟨39, _⟩ => ⟨S1048576x1, .f32⟩
  | .hbm, ⟨40, _⟩ => ⟨S1048576x1, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S1048576, .f32⟩
  | .hbm, ⟨45, _⟩ => ⟨S_, .i32⟩
  | .hbm, ⟨46, _⟩ => ⟨S1048576, .i32⟩
  | .hbm, ⟨47, _⟩ => ⟨S1048576, .i1⟩
  | .hbm, ⟨48, _⟩ => ⟨S_, .i32⟩
  | .hbm, ⟨49, _⟩ => ⟨S1048576, .i32⟩
  | .hbm, ⟨50, _⟩ => ⟨S1048576, .i32⟩
  | .hbm, ⟨51, _⟩ => ⟨S1048576, .i32⟩
  | .hbm, ⟨52, _⟩ => ⟨S1048576x1, .i32⟩
  | .hbm, ⟨53, _⟩ => ⟨S1048576, .f32⟩
  | .hbm, ⟨54, _⟩ => ⟨S_, .f32⟩
  | .hbm, ⟨55, _⟩ => ⟨S1048576, .f32⟩
  | .hbm, ⟨56, _⟩ => ⟨S1048576, .f32⟩
  | .hbm, ⟨57, _⟩ => ⟨S_, .f32⟩
  | .hbm, ⟨58, _⟩ => ⟨S1048576, .f32⟩
  | .hbm, ⟨59, _⟩ => ⟨S1048576, .f32⟩
  | .hbm, ⟨60, _⟩ => ⟨S1048576, .f32⟩
  | .hbm, ⟨61, _⟩ => ⟨S1048576, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_c : Ref sig .tc := ⟨.hbm, 45, rfl⟩
abbrev main_v7 : Ref sig .tc := ⟨.hbm, 46, rfl⟩
abbrev main_v8 : Ref sig .tc := ⟨.hbm, 47, rfl⟩
abbrev main_c_0 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x32_0_1 : S1048576x1.BroadcastsInDim S1048576x32 (![0, 1] : Fin 2 → Fin S1048576x32.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  reducesTo_S1048576_S_d0 : S1048576.ReducesTo [0] S_
  gather_S1048576x32_S1048576x1x1_S1048576x1_n_1_0_0_1_2_11_wf : GatherDims.WF S1048576x32 S1048576x1x1 S1048576x1 [] [1] [0] [1] [0] 2 ![1, 1]
  gather_S32_S1048576x1_S1048576_n_0_n_n_0_1_1_wf : GatherDims.WF S32 S1048576x1 S1048576 [] [0] [] [0] [] 1 ![1]

variable [Facts₀]

def gather_S1048576x32_S1048576x1x1_S1048576x1_n_1_0_0_1_2_11 : GatherDims S1048576x32 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x32_S1048576x1x1_S1048576x1_n_1_0_0_1_2_11_wf
def gather_S32_S1048576x1_S1048576_n_0_n_n_0_1_1 : GatherDims S32 S1048576x1 S1048576 where
  offsetDims := []
  collapsedSliceDims := [0]
  operandBatchingDims := []
  startIndicesBatchingDims := []
  startIndexMap := [0]
  indexVectorDim := 1
  sliceSizes := ![1]
  wf := gather_S32_S1048576x1_S1048576_n_0_n_n_0_1_1_wf

class Facts : Prop extends Facts₀ where

variable [Facts]
-- ==== Proof.Pieces.lean ====
/-
  What one run of the kernel body leaves in the carried accumulator and in the output block, as pure functions of the
  body's loads. The body keeps a [1,1] accumulator across grid points. At the first point it stores zero into it and
  then the zero plus the block's sum; at every later point it stores the old accumulator plus the block's sum; at the
  last point it also stores the accumulator over the sample count into the [1,1] output block. Each store covers the
  whole buffer, so what a buffer holds afterwards is the payload of its last store, and a load of the accumulator
  after a store reads that store's payload.
-/
import proofs.«415715_j34703335751859_4_alg».proof.Proof.Gen.KernelIdeal.Frame
import Idealize.ShloMosaic.Lib.Pipeline.Value

set_option maxRecDepth 16384

noncomputable section

namespace Cert.Focal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The all-zero offset of a rank-2 whole-buffer access. -/
theorem hz2 : (![0, 0] : Fin 2 → Nat) = fun _ => 0 := by
  funext a; match a with | ⟨0, _⟩ => rfl | ⟨1, _⟩ => rfl
/-- The all-zero offset of a rank-1 whole-buffer access. -/
theorem hz1 : (![0] : Fin 1 → Nat) = fun _ => 0 := by
  funext a; match a with | ⟨0, _⟩ => rfl

/-- First point: the accumulator ends at zero plus the block's sum. -/
theorem sout_first (c : Dev nD) (i : grid0.Coords) (arg1 : Memref sig .tc .vmem S8192x32 .f32) (harg1 : arg1.IsWhole) (arg2 : Memref sig .tc .vmem S8192 .i32) (harg2 : arg2.IsWhole) (arg3 : Memref sig .tc .vmem S32 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x32 .f32) (x1 : Vec F S8192 .i32) (x2 : Vec F S32 .f32) :
    sout0_A_0 c i arg1 harg1 arg2 harg2 arg3 harg3 arg4 harg4 arg5 harg5 hc0 hc1 x0 x1 x2 = k0_pay1 (k0_pay5 x0 x1) (k0_pay6 x0 x1 x2) (k0_pay3 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A; dsimp only; sl_unfold_words
  rw [View.canon_cons_unit_zero (S := S1x1) hz2, View.readCov_unit_zero (S := S1x1) _ hz2]
  simp only [View.readAt_eq_ld, harg1.read_unread, harg2.read_unread, harg3.read_unread,
    View.ld_unit_zero (S := S8192x32) hz2, View.ld_unit_zero (S := S8192) hz1, View.ld_unit_zero (S := S32) hz1]

/-- A middle point: the accumulator ends at what it held plus the block's sum. -/
theorem sout_mid (c : Dev nD) (i : grid0.Coords) (arg1 : Memref sig .tc .vmem S8192x32 .f32) (harg1 : arg1.IsWhole) (arg2 : Memref sig .tc .vmem S8192 .i32) (harg2 : arg2.IsWhole) (arg3 : Memref sig .tc .vmem S32 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x32 .f32) (x1 : Vec F S8192 .i32) (x2 : Vec F S32 .f32) (xs0 : Vec F S1x1 .f32) :
    sout0_B_0 c i arg1 harg1 arg2 harg2 arg3 harg3 arg4 harg4 arg5 harg5 hc0 hc1 x0 x1 x2 xs0 = k0_pay1 (k0_pay5 x0 x1) (k0_pay6 x0 x1 x2) xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B; dsimp only; sl_unfold_words
  rw [View.canon_unit_zero (S := S1x1) hz2]
  simp only [View.readAt_eq_ld, harg1.read_unread, harg2.read_unread, harg3.read_unread, harg5.read_unread,
    View.ld_unit_zero (S := S8192x32) hz2, View.ld_unit_zero (S := S8192) hz1, View.ld_unit_zero (S := S32) hz1,
    View.ld_unit_zero (S := S1x1) hz2]

/-- The last point: the accumulator likewise. -/
theorem sout_last (c : Dev nD) (i : grid0.Coords) (arg1 : Memref sig .tc .vmem S8192x32 .f32) (harg1 : arg1.IsWhole) (arg2 : Memref sig .tc .vmem S8192 .i32) (harg2 : arg2.IsWhole) (arg3 : Memref sig .tc .vmem S32 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x32 .f32) (x1 : Vec F S8192 .i32) (x2 : Vec F S32 .f32) (xs0 : Vec F S1x1 .f32) :
    sout0_C_0 c i arg1 harg1 arg2 harg2 arg3 harg3 arg4 harg4 arg5 harg5 hc0 hc1 x0 x1 x2 xs0 = k0_pay1 (k0_pay5 x0 x1) (k0_pay6 x0 x1 x2) xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C; dsimp only; sl_unfold_words
  rw [View.canon_unit_zero (S := S1x1) hz2]
  simp only [View.readAt_eq_ld, harg1.read_unread, harg2.read_unread, harg3.read_unread, harg5.read_unread,
    View.ld_unit_zero (S := S8192x32) hz2, View.ld_unit_zero (S := S8192) hz1, View.ld_unit_zero (S := S32) hz1,
    View.ld_unit_zero (S := S1x1) hz2]

/-- The last point: the output block ends at the new accumulator over the sample count. -/
theorem out_last (c : Dev nD) (i : grid0.Coords) (arg1 : Memref sig .tc .vmem S8192x32 .f32) (harg1 : arg1.IsWhole) (arg2 : Memref sig .tc .vmem S8192 .i32) (harg2 : arg2.IsWhole) (arg3 : Memref sig .tc .vmem S32 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x32 .f32) (x1 : Vec F S8192 .i32) (x2 : Vec F S32 .f32) (xs0 : Vec F S1x1 .f32) :
    out0_C_3 c i arg1 harg1 arg2 harg2 arg3 harg3 arg4 harg4 arg5 harg5 hc0 hc1 x0 x1 x2 xs0 = k0_pay2 (k0_pay1 (k0_pay5 x0 x1) (k0_pay6 x0 x1 x2) xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C; dsimp only; sl_unfold_words
  rw [View.canon_unit_zero (S := S1x1) hz2, View.readCov_unit_zero (S := S1x1) _ hz2]
  simp only [View.readAt_eq_ld, harg1.read_unread, harg2.read_unread, harg3.read_unread, harg5.read_unread,
    View.ld_unit_zero (S := S8192x32) hz2, View.ld_unit_zero (S := S8192) hz1, View.ld_unit_zero (S := S32) hz1,
    View.ld_unit_zero (S := S1x1) hz2]

end Cert.Focal.Pieces

end
-- ==== Proof.KChain.lean ====
/-
  The kernel's result, read off its run. The grid has 128 points; point t sees rows 8192 t … 8192 t + 8191 of the
  logits and of the class words, and the whole weight vector. The [1,1] accumulator the body carries from point to
  point holds, after point t, the body's update applied t + 1 times from zero: the first point starts it at zero, every
  later point adds its block's sum to what the point before left. Only the last point stores the output block — the
  accumulator over the sample count — and only there is the block written back, so the [1,1] result array ends at that
  value; the host's reshape after the call turns it into the scalar result.
-/
import proofs.«415715_j34703335751859_4_alg».proof.Proof.Pieces
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Focal.KChain

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block of logits point t sees. -/
abbrev xb (c : Dev nD) (t : Fin cfg0.N) : Vec F S8192x32 .f32 := iblk m c 0 t
/-- The block of class words point t sees. -/
abbrev tb (c : Dev nD) (t : Fin cfg0.N) : Vec F S8192 .i32 := iblk m c 1 t
/-- The weights, as point t sees them. -/
abbrev ab (c : Dev nD) (t : Fin cfg0.N) : Vec F S32 .f32 := iblk m c 2 t

/-- One point's update of the accumulator: the old value plus the block's sum. -/
abbrev upd (c : Dev nD) (t : Fin cfg0.N) (acc : Vec F S1x1 .f32) : Vec F S1x1 .f32 :=
  k0_pay1 (k0_pay5 (xb m c t) (tb m c t)) (k0_pay6 (xb m c t) (tb m c t) (ab m c t)) acc

/-- The accumulator after point n: the updates of points 0 … n applied in order to the stored zero. -/
def chain (c : Dev nD) : (n : ℕ) → n < cfg0.N → Vec F S1x1 .f32
  | 0, h => upd m c ⟨0, h⟩ (k0_pay3 (F := F))
  | n + 1, h => upd m c ⟨n + 1, h⟩ (chain c n (Nat.lt_of_succ_lt h))

/-- What the run leaves in the carried accumulator after point n is that chain, by induction on the point. -/
theorem acc_eq (c : Dev nD) : ∀ (n : ℕ) (h : n < cfg0.N), (outsAt0 m c n h).2 = chain m c n h
  | 0, h => by
    rw [outsAt0_A m c ⟨0, h⟩ rfl (by dsimp only; omega)]
    dsimp only
    rw [Pieces.sout_first]
    rfl
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      rw [Pieces.sout_last]
      show upd m c ⟨n + 1, h⟩ (outsAt0 m c n _).2 = upd m c ⟨n + 1, h⟩ (chain m c n _)
      rw [acc_eq c n]
    · rw [outsAt0_B m c ⟨n + 1, h⟩ h0 h1]
      dsimp only
      rw [Pieces.sout_mid]
      show upd m c ⟨n + 1, h⟩ (outsAt0 m c n _).2 = upd m c ⟨n + 1, h⟩ (chain m c n _)
      rw [acc_eq c n]

/-- The last grid point. -/
abbrev tLast : Fin cfg0.N := ⟨127, by rw [show cfg0.N = 128 from N_0]; decide⟩

/-- The output block the last point stores: the final accumulator over the sample count. -/
abbrev result (c : Dev nD) : Vec F S1x1 .f32 := k0_pay2 (chain m c 127 tLast.isLt)

/-- What the run leaves in the output's staging buffer at the last point. -/
theorem out_eq (c : Dev nD) : (outsAt0 m c 127 tLast.isLt).1 = result m c := by
  have h0 : ¬tLast.val % 128 = 0 := by decide
  have h1 : tLast.val % 128 = 127 := by decide
  rw [show outsAt0 m c 127 tLast.isLt = outsAt0 m c tLast.val tLast.isLt from rfl,
    outsAt0_C m c tLast h0 h1]
  dsimp only
  rw [Pieces.out_last]
  show k0_pay2 (upd m c tLast (outsAt0 m c 126 _).2) = k0_pay2 (upd m c tLast (chain m c 126 _))
  rw [acc_eq m c 126]

end Cert.Focal.KChain

end
-- ==== Proof.KRun.lean ====
/-
  The kernel's run, read: the [1,1] result array is written back once, at the last grid point, with the final
  accumulator over the sample count; the reshape after the call reads that one element into the scalar result.
-/
import proofs.«415715_j34703335751859_4_alg».proof.Proof.KChain

set_option maxRecDepth 16384

noncomputable section

namespace Cert.Focal.KChain

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The [1,1] shape has one index. -/
theorem idx_one (j : S1x1.Idx) : j = ix2 (0 : Fin 1) (0 : Fin 1) := by
  funext a
  apply Fin.ext
  match a with
  | ⟨0, _⟩ => have h0 : (j 0).val < 1 := (j 0).isLt; show (j 0).val = 0; omega
  | ⟨1, _⟩ => have h1 : (j 1).val < 1 := (j 1).isLt; show (j 1).val = 0; omega

/-- The final output block as contents of the result array (its one block is the whole array). -/
abbrev resultArr (c : Dev nD) : Buf (Elt F) ((c : Thread nD τ).loc main_v0) := result m c

/-- The one write-back, at the last point, writes the final output block: block (0, 0) of the [1,1] array, read through
    zero offsets, is the array. -/
theorem flushed_eq (c : Dev nD) (t : Fin cfg0.N) (hf : (cfg0.win 3).flush t = true) :
    (dats m 0 c).flushed 3 t = ((cfg0.win 3).blk t).view.read (Elt F) (resultArr m c) := by
  have hN : cfg0.N = 128 := N_0
  have h3 : t.val = 127 := by have := (flush0_3 t).mp hf; have := t.isLt; omega
  obtain rfl : t = tLast := Fin.ext h3
  show (cfg0.win 3).cut (grid0.coords tLast) ((dats m 0 c).after 3 tLast) = _
  rw [after0_3]
  rw [show outsAt0 m c tLast.val tLast.isLt = outsAt0 m c 127 tLast.isLt from rfl, out_eq]
  have hz' : (fun a => win0_3.index tLast a * main_v0.ty.shape.size a) = fun _ => 0 :=
    funext fun a => by fin_cases a <;> decide +kernel
  exact (Memref.read_access_unit_zero (Elt F) main_v0 hz' (fun a => by rw [congrFun hz' a]; simp) (resultArr m c)).symm

/-- So the result array ends holding the final output block: the last point's block covers it. -/
theorem final_o (c : Dev nD) : (dats m 0 c).arrAt 3 cfg0.N = resultArr m c :=
  (dats m 0 c).arrAt_eq_of_cover 3 (resultArr m c) (flushed_eq m c) fun i =>
    ⟨tLast, (flush0_3 tLast).mpr (by decide), by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]; omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]; omega⟩

/-- The scalar the reshape after the call leaves: the one element of the final output block. -/
theorem tail_eq (c : Dev nD) :
    Pipeline.afterTail₀ cfgs (dats m) 0 (V0 m) [hostOps1] c main_v1 = fun _ => result m c (ix2 0 0) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = resultArr m c :=
    (Pipeline.withArrays_arr spec0 launch0.win.arr_inj c _ _ 3).trans (final_o m c)
  funext i
  show shapeCast S_ (Pipeline.withArrays (cfgs 0).spec c (V0 m c) (fun w => (dats m 0 c).arrAt w (cfgs 0).N)
      (Proc.devRef .tc main_v0)) shapeCasts_S1x1_S_ i = _
  rw [e]
  unfold shapeCast
  exact congrArg (result m c) (idx_one _)

/-- THE KERNEL'S RUN, READ: every weakly fair execution terminates with the scalar result at the one element of the
    final output block, and the three argument arrays unchanged. -/
theorem run : θ_run defs (onTc (τ := τ) (main (F := F))) ⟨m, fun _ => 0, ρ⟩ fun r => ∀ c : Dev nD,
      r.2.mem ((c.tc : Thread nD τ).loc main_v1) = (fun _ => result m c (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Focal.KChain

end
-- ==== Proof.Spec.lean ====
/-
  The focal loss of one sample and of the whole batch, as functions on the extended reals.

  A sample is a row x of 32 logits, a class t and the per-class weights a. With m the row's maximum, its
  log-probabilities are logp k = (x k - m) - log (sum over j of exp (x j - m)); its cross-entropy is ce = -logp t,
  the probability of the true class p = exp (-ce), and its focal term a t * (1 - p)^2 * ce. The batch loss is the mean
  of the 1048576 terms.

  Two spellings of the same term are stated here. One picks the class by index (termR). The other picks it by a
  one-hot mask summed over the 32 classes and clamps 1 - p at zero before squaring (termK). They agree on finite rows
  and classes in range, where 0 < p <= 1. The batch sum likewise has two spellings: one sum over all samples (total), and
  128 partial sums of 8192 consecutive samples added one after the other (totalK).
-/
import Idealize.ShloMosaic.PureOps.Ideal
import Idealize.ShloMosaic.Lib.ValueIdx

noncomputable section

open scoped BigOperators

namespace Cert.Focal

open Idealize.ShloMosaic Idealize.ShloMosaic.ValueIdx

/-- The divisor of the mean, the number of samples as a float word (2^20). -/
abbrev scale : EReal := Ideal.ofBits .f32 0x49800000#32

/-- The row maximum: the fold of max over the 32 logits from the float word of minus infinity. -/
def rowMax (x : Fin 32 → EReal) : EReal := (Finset.univ : Finset (Fin 32)).fold max (Ideal.ofBits .f32 0xFF800000#32) x

/-- The log-probability of class k: the shifted logit minus the log of the sum of the shifted exponentials. -/
def logp (x : Fin 32 → EReal) (k : Fin 32) : EReal :=
  (x k - rowMax x) - Ideal.log (∑ j : Fin 32, Ideal.exp (x j - rowMax x))

/-- The focal term with the class picked by index. -/
def termR (x a : Fin 32 → EReal) (j : Fin 32) : EReal :=
  a j * Ideal.pow (1 - Ideal.exp (-(-(logp x j)))) 2 * (-(logp x j))

/-- The cross-entropy with the class picked by a one-hot mask over the class numbers as 32-bit words. -/
def ceK (x : Fin 32 → EReal) (t : BitVec 32) : EReal :=
  0 - ∑ k : Fin 32, (if BitVec.ofNat 32 k.val = t then logp x k else 0)

/-- The focal term with the class picked by the mask, and 1 - p clamped at zero before it is squared. -/
def termK (x a : Fin 32 → EReal) (t : BitVec 32) : EReal :=
  (∑ k : Fin 32, (if BitVec.ofNat 32 k.val = t then a k else 0))
    * (max (1 - Ideal.exp (0 - ceK x t)) 0 * max (1 - Ideal.exp (0 - ceK x t)) 0) * ceK x t

/-- The class a word names, as an index (the word read unsigned, modulo 32: on words in range it is the word). -/
def cls (t : BitVec 32) : Fin 32 := ⟨t.toNat % 32, Nat.mod_lt _ (by norm_num)⟩

/-- Sample n's row of logits, n taken modulo the batch size. -/
def rowN (X : (⟨2, ![1048576, 32]⟩ : Shape).Idx → EReal) (n : ℕ) : Fin 32 → EReal :=
  fun k => X (ix2 (⟨n % 1048576, Nat.mod_lt _ (by norm_num)⟩ : Fin 1048576) k)

/-- Sample n's class word, n taken modulo the batch size. -/
def tgtN (T : (⟨1, ![1048576]⟩ : Shape).Idx → BitVec 32) (n : ℕ) : BitVec 32 :=
  T (ix1 (⟨n % 1048576, Nat.mod_lt _ (by norm_num)⟩ : Fin 1048576))

/-- The class weights as a function of the class. -/
def wts (A : (⟨1, ![32]⟩ : Shape).Idx → EReal) : Fin 32 → EReal := fun k => A (ix1 k)

/-- The batch loss, one sum over all samples. -/
def total (X : (⟨2, ![1048576, 32]⟩ : Shape).Idx → EReal) (T : (⟨1, ![1048576]⟩ : Shape).Idx → BitVec 32)
    (A : (⟨1, ![32]⟩ : Shape).Idx → EReal) : EReal :=
  Ideal.div (∑ n : Fin 1048576, termR (rowN X n.val) (wts A) (cls (tgtN T n.val))) scale

/-- The sum of the masked terms over the 8192 consecutive samples of block i. -/
def blockSum (X : (⟨2, ![1048576, 32]⟩ : Shape).Idx → EReal) (T : (⟨1, ![1048576]⟩ : Shape).Idx → BitVec 32)
    (A : (⟨1, ![32]⟩ : Shape).Idx → EReal) (i : ℕ) : EReal :=
  ∑ r : Fin 8192, termK (rowN X (i * 8192 + r.val)) (wts A) (tgtN T (i * 8192 + r.val))

/-- The running sum after block i: zero plus block 0, then one block added at a time. -/
def accK (X : (⟨2, ![1048576, 32]⟩ : Shape).Idx → EReal) (T : (⟨1, ![1048576]⟩ : Shape).Idx → BitVec 32)
    (A : (⟨1, ![32]⟩ : Shape).Idx → EReal) : ℕ → EReal
  | 0 => 0 + blockSum X T A 0
  | i + 1 => accK X T A i + blockSum X T A (i + 1)

/-- The batch loss as the blocks accumulate it: the running sum after the last of the 128 blocks over the divisor. -/
def totalK (X : (⟨2, ![1048576, 32]⟩ : Shape).Idx → EReal) (T : (⟨1, ![1048576]⟩ : Shape).Idx → BitVec 32)
    (A : (⟨1, ![32]⟩ : Shape).Idx → EReal) : EReal :=
  Ideal.div (accK X T A 127) scale

end Cert.Focal

end
-- ==== Proof.Payloads.lean ====
/-
  The body's arithmetic read at an index, on the extended reals.

  Each grid point holds a block of 8192 samples: a row of 32 logits, a class word and the 32 class weights. The body
  forms, row by row, the cross-entropy with the class picked by a one-hot mask over the lanes (a column of 8192 values),
  the focal factor times the masked weight (another column), multiplies the two columns, sums the 8192 products and adds
  the sum to the running total it keeps in a one-element block. Read at an index, the two columns are the
  specification's masked cross-entropy and its masked weight times the clamped square, so the new total is the old one
  plus the sum over the block's rows of the specification's masked focal term. The first grid point stores zero as the
  total and the last one stores the total over the divisor of the mean.

  The layout steps between the arithmetic (a vector viewed as a column, a column copied along the lanes, a lane
  reduction's inserted coordinate) are read at coordinates first; then the mask, the two columns, and the three stored
  values.
-/
import proofs.«415715_j34703335751859_4_alg».proof.Proof.Gen.KernelIdeal.Skeleton
import proofs.«415715_j34703335751859_4_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Focal.Payload

open Cert.KernelIdeal Cert.KernelIdeal.Gen Idealize.ShloMosaic Idealize.ShloMosaic.ValueIdx

/-! ## Layout read at coordinates -/

section Layout
variable {α : Type}

/-- A vector `[a]` viewed as the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along `b` lanes reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The one index of the one-element block. -/
theorem idx_S1x1 (j : S1x1.Idx) : j = ix2 (0 : Fin 1) (0 : Fin 1) := by
  funext a
  match a with
  | ⟨0, _⟩ => exact Subsingleton.elim (α := Fin 1) _ _
  | ⟨1, _⟩ => exact Subsingleton.elim (α := Fin 1) _ _

/-- Over row `r`, the lane reduction's source index with lane `k` inserted is `(r, k)`. -/
theorem lift_row (h : S8192x32.Reduces [1] S8192) (r : Fin 8192) (k : Fin 32) : h.lift (ix1 r) k = ix2 r k := by
  funext c
  match c with
  | ⟨0, _⟩ => exact Fin.ext rfl
  | ⟨1, _⟩ => exact Fin.ext rfl

/-- Over the one result index, the row reduction's source index with row `r` inserted is `(r, 0)`. -/
theorem lift_col (h : S8192x1.Reduces [0] S1) (r : Fin 8192) : h.lift (ix1 (0 : Fin 1)) r = ix2 r (0 : Fin 1) := by
  funext c
  match c with
  | ⟨0, _⟩ => exact Fin.ext rfl
  | ⟨1, _⟩ => exact Fin.ext rfl

/-- A lane sum of a block at row `r` is the sum over the 32 lanes. -/
theorem rowSum_apply (v : FVec Ideal S8192x32 .f32) (h : S8192x32.Reduces [1] S8192)
    (hφ : FKind.Formats .f32) (hacc : (0x00000000#32 : BitVec 32) = 0x00000000#32) (r : Fin 8192) :
    multiReduction .add [1] S8192 v 0x00000000#32 h hφ hacc (ix1 r) = ∑ k : Fin 32, v (ix2 r k) :=
  (Ideal.multiReduction_add_single v 0x00000000#32 h hφ hacc (ix1 r)).trans
    (Finset.sum_congr rfl fun k _ => congrArg v (lift_row h r k))

/-- A lane maximum of a block at row `r` is the specification's row maximum of that row. -/
theorem rowMax_apply (v : FVec Ideal S8192x32 .f32) (h : S8192x32.Reduces [1] S8192)
    (hφ : FKind.Formats .f32) (hacc : (0xFF800000#32 : BitVec 32) = 0xFF800000#32) (r : Fin 8192) :
    multiReduction .maximumf [1] S8192 v 0xFF800000#32 h hφ hacc (ix1 r) = Cert.Focal.rowMax (fun k : Fin 32 => v (ix2 r k)) := by
  refine (Ideal.multiReduction_maximumf_single v 0xFF800000#32 h hφ hacc (ix1 r)).trans ?_
  have e : (v ∘ h.lift (ix1 r) : Fin 32 → EReal) = fun k : Fin 32 => v (ix2 r k) :=
    funext fun k => congrArg v (lift_row h r k)
  exact congrArg (fun f : Fin 32 → EReal => (Finset.univ : Finset (Fin 32)).fold max (Ideal.ofBits .f32 0xFF800000#32) f) e

/-- A sum of a column over its rows is the sum over the 8192 rows. -/
theorem colSum_apply (v : FVec Ideal S8192x1 .f32) (h : S8192x1.Reduces [0] S1)
    (hφ : FKind.Formats .f32) (hacc : (0x00000000#32 : BitVec 32) = 0x00000000#32) :
    multiReduction .add [0] S1 v 0x00000000#32 h hφ hacc (ix1 (0 : Fin 1)) = ∑ r : Fin 8192, v (ix2 r (0 : Fin 1)) :=
  (Ideal.multiReduction_add_single v 0x00000000#32 h hφ hacc (ix1 (0 : Fin 1))).trans
    (Finset.sum_congr rfl fun r _ => congrArg v (lift_col h r))

/-! ## The pointwise unary operations at an index -/

/-- An exponential at an index is the exponential of the element. -/
theorem exp_apply {s : Shape} {φ : FTy} (a : FVec Ideal s φ) (i : s.Idx) : exp a i = Ideal.exp (a i) := rfl
/-- A logarithm at an index is the logarithm of the element. -/
theorem log_apply {s : Shape} {φ : FTy} (a : FVec Ideal s φ) (i : s.Idx) : log a i = Ideal.log (a i) := rfl

/-! ## The one-hot mask -/

/-- The mask at `(r, k)` compares lane `k`'s number with row `r`'s class word. -/
theorem pay4_apply (x1 : Vec Ideal S8192 .i32) (r : Fin 8192) (k : Fin 32) :
    k0_pay4 (F := Ideal) x1 (ix2 r k) = IntOp.cmpi .eq (BitVec.ofNat 32 k.val) (x1 (ix1 r)) := by
  unfold k0_pay4
  show IntOp.cmpi .eq (iota .tc S8192x32 32 [1] _ (ix2 r k))
    (broadcastTo S8192x32 (shapeCast S8192x1 x1 _) _ (ix2 r k)) = _
  rw [iota_single_apply, broadcastTo_a1_ab_apply, shapeCast_a_a1_apply]

/-- A select on the mask at `(r, k)` takes its first operand exactly when lane `k`'s number is row `r`'s class word. -/
theorem mask_select (x1 : Vec Ideal S8192 .i32) (u v : FVec Ideal S8192x32 .f32) (r : Fin 8192) (k : Fin 32) :
    select (k0_pay4 (F := Ideal) x1) u v (ix2 r k)
      = if BitVec.ofNat 32 k.val = x1 (ix1 r) then u (ix2 r k) else v (ix2 r k) := by
  rw [select_apply, pay4_apply]
  by_cases h : BitVec.ofNat 32 k.val = x1 (ix1 r)
  · rw [if_pos h, h]
    have e : IntOp.cmpi .eq (x1 (ix1 r)) (x1 (ix1 r)) = 1#1 := by simp [IntOp.cmpi]
    rw [e, select_one]
  · rw [if_neg h]
    have hb : (BitVec.ofNat 32 k.val == x1 (ix1 r)) = false := beq_eq_false_iff_ne.mpr h
    have e : IntOp.cmpi .eq (BitVec.ofNat 32 k.val) (x1 (ix1 r)) = 0#1 := by
      show BitVec.ofBool (BitVec.ofNat 32 k.val == x1 (ix1 r)) = 0#1
      rw [hb]; rfl
    rw [e, select_zero]

/-! ## The pieces of the cross-entropy column -/

/-- The shifted logits at `(r, k)`: the logit minus its row's maximum. -/
theorem shift_apply (x0 : FVec Ideal S8192x32 .f32) (h : S8192x32.Reduces [1] S8192) (hφ : FKind.Formats .f32)
    (hacc : (0xFF800000#32 : BitVec 32) = 0xFF800000#32) (hc : S8192.ShapeCasts S8192x1)
    (hb : S8192x1.Broadcasts S8192x32) (r : Fin 8192) (k : Fin 32) :
    subf x0 (broadcastTo S8192x32 (shapeCast S8192x1 (multiReduction .maximumf [1] S8192 x0 0xFF800000#32 h hφ hacc) hc) hb)
        (ix2 r k)
      = x0 (ix2 r k) - Cert.Focal.rowMax (fun k : Fin 32 => x0 (ix2 r k)) := by
  rw [subf_apply, broadcastTo_a1_ab_apply, shapeCast_a_a1_apply, rowMax_apply]

/-- The log of the lane sum of the exponentials of a block, copied along the lanes, at `(r, k)`: the log of the sum over
    row `r`, whatever the block's row is known to be (`hw`). -/
theorem lse_apply (w : FVec Ideal S8192x32 .f32) (h : S8192x32.Reduces [1] S8192) (hφ : FKind.Formats .f32)
    (hacc : (0x00000000#32 : BitVec 32) = 0x00000000#32) (hc : S8192.ShapeCasts S8192x1)
    (hb : S8192x1.Broadcasts S8192x32) (r : Fin 8192) (k : Fin 32) (f : Fin 32 → EReal)
    (hw : ∀ j : Fin 32, w (ix2 r j) = f j) :
    broadcastTo S8192x32 (log (shapeCast S8192x1 (multiReduction .add [1] S8192 (exp w) 0x00000000#32 h hφ hacc) hc)) hb
        (ix2 r k)
      = Ideal.log (∑ j : Fin 32, Ideal.exp (f j)) := by
  rw [broadcastTo_a1_ab_apply, log_apply, shapeCast_a_a1_apply, rowSum_apply]
  exact congrArg Ideal.log (Finset.sum_congr rfl fun j _ => congrArg Ideal.exp (hw j))

/-- The masked lane sum as a column, at row `r`: the sum over the lanes of the first block where the lane's number is
    the row's class word and of the second elsewhere, whatever the two blocks' rows are known to be (`ha`, `hb`). -/
theorem maskSum_apply (x1 : Vec Ideal S8192 .i32) (a b : FVec Ideal S8192x32 .f32) (h : S8192x32.Reduces [1] S8192)
    (hφ : FKind.Formats .f32) (hacc : (0x00000000#32 : BitVec 32) = 0x00000000#32) (hc : S8192.ShapeCasts S8192x1)
    (r : Fin 8192) (u : Fin 1) (f g : Fin 32 → EReal) (ha : ∀ k : Fin 32, a (ix2 r k) = f k)
    (hb : ∀ k : Fin 32, b (ix2 r k) = g k) :
    shapeCast S8192x1 (multiReduction .add [1] S8192 (select (k0_pay4 (F := Ideal) x1) a b) 0x00000000#32 h hφ hacc) hc
        (ix2 r u)
      = ∑ k : Fin 32, (if BitVec.ofNat 32 k.val = x1 (ix1 r) then f k else g k) := by
  rw [shapeCast_a_a1_apply, rowSum_apply]
  exact Finset.sum_congr rfl fun k _ => by rw [mask_select, ha, hb]

/-! ## The two columns -/

/-- The cross-entropy column at row `r` is the specification's masked cross-entropy of that row and its class word. -/
theorem pay5_apply (x0 : Vec Ideal S8192x32 .f32) (x1 : Vec Ideal S8192 .i32) (r : Fin 8192) (u : Fin 1) :
    k0_pay5 (F := Ideal) x0 x1 (ix2 r u) = Cert.Focal.ceK (fun k : Fin 32 => x0 (ix2 r k)) (x1 (ix1 r)) := by
  unfold k0_pay5
  rw [subf_apply, broadcast_apply]
  show _ = 0 - ∑ k : Fin 32,
    (if BitVec.ofNat 32 k.val = x1 (ix1 r) then Cert.Focal.logp (fun k : Fin 32 => x0 (ix2 r k)) k else 0)
  refine congrArg₂ (· - ·) Ideal.ofBits_zero_f32 ?_
  exact maskSum_apply x1 _ _ _ _ _ _ r u _ _
    (fun k => (subf_apply _ _ _).trans (congrArg₂ (· - ·) (shift_apply x0 _ _ _ _ _ r k)
      (lse_apply _ _ _ _ _ _ r k _ fun j => shift_apply x0 _ _ _ _ _ r j)))
    (fun _ => Ideal.ofBits_zero_f32)

/-- The weight column at row `r`: the masked weight times the square of one minus the class probability clamped at zero. -/
theorem pay6_apply (x0 : Vec Ideal S8192x32 .f32) (x1 : Vec Ideal S8192 .i32) (x2 : Vec Ideal S32 .f32)
    (r : Fin 8192) (u : Fin 1) :
    k0_pay6 (F := Ideal) x0 x1 x2 (ix2 r u)
      = (∑ k : Fin 32, (if BitVec.ofNat 32 k.val = x1 (ix1 r) then x2 (ix1 k) else 0))
        * (max (1 - Ideal.exp (0 - Cert.Focal.ceK (fun k : Fin 32 => x0 (ix2 r k)) (x1 (ix1 r)))) 0
          * max (1 - Ideal.exp (0 - Cert.Focal.ceK (fun k : Fin 32 => x0 (ix2 r k)) (x1 (ix1 r)))) 0) := by
  unfold k0_pay6
  refine (mulf_apply _ _ _).trans (congrArg₂ (· * ·) ?_ ?_)
  · exact maskSum_apply x1 _ _ _ _ _ _ r u _ _
      (fun k => by rw [broadcastTo_1b_ab_apply, shapeCast_self, shapeCast_a_1a_apply])
      (fun _ => Ideal.ofBits_zero_f32)
  · rw [mulf_apply, maximumf_apply, subf_apply, exp_apply, subf_apply, pay5_apply]
    simp only [broadcast_apply, Ideal.ofBits_def, Ideal.ofBits_zero_f32, Ideal.ofBits_one_f32]

/-! ## The three stored values -/

/-- The first grid point stores zero as the running total. -/
theorem pay3_apply (j : S1x1.Idx) : k0_pay3 (F := Ideal) j = 0 := by
  unfold k0_pay3
  rw [shapeCast_self, broadcast_apply]
  exact Ideal.ofBits_zero_f32

/-- The last grid point stores the running total over the divisor of the mean. -/
theorem pay2_apply (v : Vec Ideal S1x1 .f32) (j : S1x1.Idx) :
    k0_pay2 (F := Ideal) v j = Ideal.div (v j) Cert.Focal.scale := by
  unfold k0_pay2
  rfl

/-- Every grid point adds to the running total the sum, over its block's 8192 rows, of the masked focal term. -/
theorem pay1_apply (x0 : Vec Ideal S8192x32 .f32) (x1 : Vec Ideal S8192 .i32) (x2 : Vec Ideal S32 .f32)
    (xs : Vec Ideal S1x1 .f32) (j : S1x1.Idx) :
    k0_pay1 (F := Ideal) (k0_pay5 x0 x1) (k0_pay6 x0 x1 x2) xs j
      = xs j + ∑ r : Fin 8192,
          Cert.Focal.termK (fun k : Fin 32 => x0 (ix2 r k)) (fun k : Fin 32 => x2 (ix1 k)) (x1 (ix1 r)) := by
  obtain rfl := idx_S1x1 j
  unfold k0_pay1
  rw [shapeCast_self, addf_apply, shapeCast_a_a1_apply, colSum_apply]
  refine congrArg (xs (ix2 (0 : Fin 1) (0 : Fin 1)) + ·) (Finset.sum_congr rfl fun r _ => ?_)
  rw [mulf_apply, pay6_apply, pay5_apply]
  rfl

end Cert.Focal.Payload

end
-- ==== Proof.KIdeal.lean ====
/-
  The kernel's result over the extended reals. Point t's blocks are rows 8192 t … 8192 t + 8191 of the logits and of the
  class words and the whole weight vector, so its update adds the sum of the masked focal terms of those samples; the
  accumulator after point n is the running sum of the specification, and the stored result is that sum after the last
  point over the sample count.
-/
import proofs.«415715_j34703335751859_4_alg».proof.Proof.KChain
import proofs.«415715_j34703335751859_4_alg».proof.Proof.Payloads
import proofs.«415715_j34703335751859_4_alg».proof.Proof.Spec

set_option maxRecDepth 16384

noncomputable section

open scoped BigOperators

namespace Cert.Focal.KIdeal

open Cert.KernelIdeal Cert.KernelIdeal.Gen Cert.Focal.KChain
open Idealize.ShloMosaic Idealize.ShloMosaic.TcCoe Idealize.SL.Sem Idealize.ShloMosaic.ValueIdx

variable (m : (ℓ : Loc nD τ sig) → Buf (Elt Ideal) ℓ)

/-- The logits on core c. -/
abbrev Xa (c : Dev nD) : FVec Ideal S1048576x32 .f32 := m ((c : Thread nD τ).loc main_arg0)
/-- The class words on core c. -/
abbrev Ta (c : Dev nD) : IVec S1048576 32 := m ((c : Thread nD τ).loc main_arg1)
/-- The class weights on core c. -/
abbrev Aa (c : Dev nD) : FVec Ideal S32 .f32 := m ((c : Thread nD τ).loc main_arg2)

/-- The windows' block indices at every grid point: rows advance with the point, the weights stay. -/
theorem idx_facts : ∀ t : Fin cfg0.N, win0_0.index t 0 = t.val ∧ win0_0.index t 1 = 0 ∧ win0_1.index t 0 = t.val
      ∧ win0_2.index t 0 = 0 :=
  (by decide +kernel : ∀ t : Fin grid0.N, win0_0.index t 0 = t.val ∧ win0_0.index t 1 = 0 ∧ win0_1.index t 0 = t.val
      ∧ win0_2.index t 0 = 0)

/-- Row r of point t's block of logits is sample 8192 t + r's row. -/
theorem xb_apply (c : Dev nD) (t : Fin cfg0.N) (r : Fin 8192) (k : Fin 32) :
    xb m c t (ix2 r k) = rowN (Xa m c) (t.val * 8192 + r.val) k := by
  have hN : cfg0.N = 128 := N_0
  have ht := t.isLt
  show iblk m c 0 t (ix2 r k) = _
  unfold iblk
  rw [View.read_apply]
  show V m c main_arg0 _ = m ((c : Thread nD τ).loc main_arg0) _
  unfold V
  congr 1
  funext a
  apply Fin.ext
  match a with
  | ⟨0, _⟩ =>
    show win0_0.index t 0 * 8192 + 1 * r.val = (t.val * 8192 + r.val) % 1048576
    rw [(idx_facts t).1, Nat.mod_eq_of_lt (by omega)]; omega
  | ⟨1, _⟩ =>
    show win0_0.index t 1 * 32 + 1 * k.val = k.val
    rw [(idx_facts t).2.1]; omega

/-- Entry r of point t's block of class words is sample 8192 t + r's class word. -/
theorem tb_apply (c : Dev nD) (t : Fin cfg0.N) (r : Fin 8192) :
    tb m c t (ix1 r) = tgtN (Ta m c) (t.val * 8192 + r.val) := by
  have hN : cfg0.N = 128 := N_0
  have ht := t.isLt
  show iblk m c 1 t (ix1 r) = _
  unfold iblk
  rw [View.read_apply]
  show V m c main_arg1 _ = m ((c : Thread nD τ).loc main_arg1) _
  unfold V
  congr 1
  funext a
  apply Fin.ext
  match a with
  | ⟨0, _⟩ =>
    show win0_1.index t 0 * 8192 + 1 * r.val = (t.val * 8192 + r.val) % 1048576
    rw [(idx_facts t).2.2.1, Nat.mod_eq_of_lt (by omega)]; omega

/-- Every point sees the whole weight vector. -/
theorem ab_apply (c : Dev nD) (t : Fin cfg0.N) (k : Fin 32) :
    ab m c t (ix1 k) = wts (Aa m c) k := by
  show iblk m c 2 t (ix1 k) = _
  unfold iblk
  rw [View.read_apply]
  show V m c main_arg2 _ = m ((c : Thread nD τ).loc main_arg2) _
  unfold V
  congr 1
  funext a
  apply Fin.ext
  match a with
  | ⟨0, _⟩ =>
    show win0_2.index t 0 * 32 + 1 * k.val = k.val
    rw [(idx_facts t).2.2.2]; omega

/-- The masked term of row r of point t's blocks is the masked term of sample 8192 t + r. -/
theorem term_eq (c : Dev nD) (t : Fin cfg0.N) (r : Fin 8192) :
    termK (fun k : Fin 32 => xb m c t (ix2 r k)) (fun k : Fin 32 => ab m c t (ix1 k)) (tb m c t (ix1 r))
      = termK (rowN (Xa m c) (t.val * 8192 + r.val)) (wts (Aa m c)) (tgtN (Ta m c) (t.val * 8192 + r.val)) := by
  rw [show (fun k : Fin 32 => xb m c t (ix2 r k)) = rowN (Xa m c) (t.val * 8192 + r.val) from
      funext fun k => xb_apply m c t r k,
    show (fun k : Fin 32 => ab m c t (ix1 k)) = wts (Aa m c) from funext fun k => ab_apply m c t k,
    tb_apply m c t r]

/-- One point's update adds its block's sum of masked terms. -/
theorem upd_apply (c : Dev nD) (t : Fin cfg0.N) (acc : Vec Ideal S1x1 .f32) (j : S1x1.Idx) :
    upd m c t acc j = acc j + blockSum (Xa m c) (Ta m c) (Aa m c) t.val := by
  show k0_pay1 (F := Ideal) (k0_pay5 (xb m c t) (tb m c t)) (k0_pay6 (xb m c t) (tb m c t) (ab m c t)) acc j = _
  rw [Payload.pay1_apply]
  unfold blockSum
  exact congrArg (acc j + ·) (Finset.sum_congr rfl fun r _ => term_eq m c t r)

/-- The accumulator after point n is the specification's running sum. -/
theorem chain_apply (c : Dev nD) : ∀ (n : ℕ) (h : n < cfg0.N) (j : S1x1.Idx),
    chain m c n h j = accK (Xa m c) (Ta m c) (Aa m c) n
  | 0, h, j => by
    show upd m c ⟨0, h⟩ (k0_pay3 (F := Ideal)) j = _
    rw [upd_apply, Payload.pay3_apply]
    rfl
  | n + 1, h, j => by
    show upd m c ⟨n + 1, h⟩ (chain m c n (Nat.lt_of_succ_lt h)) j = _
    rw [upd_apply, chain_apply c n]
    rfl

/-- The stored result is the batch loss as the blocks accumulate it. -/
theorem result_apply (c : Dev nD) (j : S1x1.Idx) : result m c j = totalK (Xa m c) (Ta m c) (Aa m c) := by
  show k0_pay2 (F := Ideal) (chain m c 127 tLast.isLt) j = _
  rw [Payload.pay2_apply, chain_apply]
  rfl

end Cert.Focal.KIdeal

end
-- ==== Proof.RowLaw.lean ====
/-
  The two spellings of the focal term, and of the batch sum, agree on finite rows and classes in range.

  For a class word t with 0 <= t < 32 the mask "the class number k, as a 32-bit word, equals t" holds at exactly one
  class, cls t, so a masked sum over the 32 classes is its term at cls t. On a finite row the row maximum m is finite,
  each shifted logit d k = x k - m is real, the sum S of the 32 exponentials exp (d k) is a positive real, and the
  log-probability d j - log S is a real number that is at most zero, because exp (d j) is one of the nonnegative terms
  of S. Hence p = exp (logp) lies in (0, 1], 1 - p is a nonnegative real u, clamping u at zero changes nothing, and
  u to the real power 2 is u * u. The weight and the cross-entropy factors are the same in both spellings, so nothing
  is asked of the weights. The 128 partial sums of 8192 consecutive samples add up to the one sum over all 1048576.
-/
import proofs.«415715_j34703335751859_4_alg».proof.Proof.Spec
import Mathlib.Analysis.SpecialFunctions.Pow.Real
import Mathlib.Analysis.SpecialFunctions.Log.Basic
import Mathlib.Analysis.SpecialFunctions.Exp
import Mathlib.Algebra.BigOperators.Intervals
import Mathlib.Algebra.BigOperators.Fin
import Mathlib.Data.Fintype.BigOperators
import Mathlib.Data.Finset.Fold
import Mathlib.Data.EReal.Basic
import Mathlib.Data.EReal.Operations

noncomputable section

open scoped BigOperators

namespace Cert.Focal

open Idealize.ShloMosaic Idealize.ShloMosaic.ValueIdx

/-! ### The one-hot mask -/

/-- A class word in range, read unsigned, is below 32. -/
theorem toNat_lt_of_range (t : BitVec 32) (ht : 0 ≤ t.toInt ∧ t.toInt < 32) : t.toNat < 32 := by
  have hlt := t.isLt
  rcases ht with ⟨h0, h32⟩
  rw [BitVec.toInt_eq_toNat_cond] at h0 h32
  split_ifs at h0 h32 <;> omega

/-- The mask holds at exactly one class: the class number k as a word is t exactly when k is cls t. -/
theorem mask_iff (t : BitVec 32) (ht : 0 ≤ t.toInt ∧ t.toInt < 32) (k : Fin 32) :
    BitVec.ofNat 32 k.val = t ↔ k = cls t := by
  have h1 := toNat_lt_of_range t ht
  have hk := k.isLt
  constructor
  · intro h
    apply Fin.ext
    have h2 := congrArg BitVec.toNat h
    rw [BitVec.toNat_ofNat] at h2
    show k.val = t.toNat % 32
    omega
  · intro h
    subst h
    apply BitVec.eq_of_toNat_eq
    rw [BitVec.toNat_ofNat]
    show (t.toNat % 32) % 2 ^ 32 = t.toNat
    omega

/-- A masked sum over the classes is its term at the class the word names. -/
theorem mask_sum (t : BitVec 32) (ht : 0 ≤ t.toInt ∧ t.toInt < 32) (f : Fin 32 → EReal) :
    (∑ k : Fin 32, (if BitVec.ofNat 32 k.val = t then f k else 0)) = f (cls t) := by
  have h : ∀ k : Fin 32, (if BitVec.ofNat 32 k.val = t then f k else 0) = (if k = cls t then f k else 0) := by
    intro k
    exact if_congr (mask_iff t ht k) rfl rfl
  rw [Finset.sum_congr rfl (fun k _ => h k), Finset.sum_ite_eq' Finset.univ (cls t) f]
  simp

/-! ### Finite rows -/

/-- The coercion of the reals into the extended reals goes through a finite sum. -/
theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The float word of minus infinity is the bottom of the extended reals. -/
theorem ofBits_neg_inf : Ideal.ofBits .f32 0xFF800000#32 = (⊥ : EReal) := by
  simp [Ideal.ofBits, Ideal.ieee]

/-- The maximum of a finite row is finite. -/
theorem rowMax_real (x : Fin 32 → EReal) (hx : ∀ k, ∃ r : ℝ, x k = (r : EReal)) :
    ∃ m : ℝ, rowMax x = (m : EReal) := by
  have htop : rowMax x ≠ ⊤ := by
    apply ne_of_lt
    unfold rowMax
    rw [Finset.fold_max_lt]
    refine ⟨?_, ?_⟩
    · rw [ofBits_neg_inf]; exact bot_lt_top
    · intro k _
      obtain ⟨r, hr⟩ := hx k
      rw [hr]; exact EReal.coe_lt_top r
  have hbot : rowMax x ≠ ⊥ := by
    apply ne_of_gt
    obtain ⟨r, hr⟩ := hx 0
    have hle : x 0 ≤ rowMax x := by
      unfold rowMax
      rw [Finset.le_fold_max]
      exact Or.inr ⟨0, Finset.mem_univ _, le_rfl⟩
    exact lt_of_lt_of_le (by rw [hr]; exact EReal.bot_lt_coe r) hle
  exact ⟨(rowMax x).toReal, (EReal.coe_toReal htop hbot).symm⟩

/-- On a finite row every log-probability is a real number that is at most zero. -/
theorem logp_real (x : Fin 32 → EReal) (hx : ∀ k, ∃ r : ℝ, x k = (r : EReal)) (j : Fin 32) :
    ∃ l : ℝ, l ≤ 0 ∧ logp x j = (l : EReal) := by
  obtain ⟨m, hm⟩ := rowMax_real x hx
  choose r hr using hx
  have hd : ∀ k, x k - rowMax x = ((r k - m : ℝ) : EReal) := by
    intro k; rw [hr k, hm, EReal.coe_sub]
  have hS : (∑ k : Fin 32, Ideal.exp (x k - rowMax x)) = ((∑ k : Fin 32, Real.exp (r k - m) : ℝ) : EReal) := by
    rw [coe_sum_real]
    exact Finset.sum_congr rfl (fun k _ => by rw [hd k, Ideal.exp_coe])
  have hterm : Real.exp (r j - m) ≤ ∑ k : Fin 32, Real.exp (r k - m) :=
    Finset.single_le_sum (f := fun k => Real.exp (r k - m)) (fun k _ => (Real.exp_pos _).le) (Finset.mem_univ j)
  have hSpos : 0 < ∑ k : Fin 32, Real.exp (r k - m) := lt_of_lt_of_le (Real.exp_pos _) hterm
  refine ⟨(r j - m) - Real.log (∑ k : Fin 32, Real.exp (r k - m)), ?_, ?_⟩
  · have : r j - m ≤ Real.log (∑ k : Fin 32, Real.exp (r k - m)) := (Real.le_log_iff_exp_le hSpos).mpr hterm
    linarith
  · unfold logp
    rw [hS, hd j, Ideal.log_coe, if_neg (not_le.mpr hSpos)]
    exact (EReal.coe_sub _ _).symm

/-! ### The focal term -/

/-- The square of the clamped 1 - p is the real power 2 of 1 - p when the log-probability is a real at most zero. -/
theorem clamp_sq (l : ℝ) (hl : l ≤ 0) :
    max (1 - Ideal.exp (l : EReal)) 0 * max (1 - Ideal.exp (l : EReal)) 0 = Ideal.pow (1 - Ideal.exp (l : EReal)) 2 := by
  have hu : 0 ≤ 1 - Real.exp l := by
    have := Real.exp_le_one_iff.mpr hl
    linarith
  have h1 : (1 : EReal) - Ideal.exp (l : EReal) = ((1 - Real.exp l : ℝ) : EReal) := by
    rw [Ideal.exp_coe, EReal.coe_sub, EReal.coe_one]
  have h2 : (2 : EReal) = ((2 : ℝ) : EReal) := by norm_cast
  rw [h1, max_eq_left (EReal.coe_nonneg.mpr hu), h2, Ideal.pow_coe_coe, ← EReal.coe_mul]
  congr 1
  rw [Real.rpow_eq_pow, Real.rpow_two, sq]

theorem termK_eq_termR (x a : Fin 32 → EReal) (t : BitVec 32)
    (hx : ∀ k, ∃ r : ℝ, x k = (r : EReal)) (ht : 0 ≤ t.toInt ∧ t.toInt < 32) :
    termK x a t = termR x a (cls t) := by
  obtain ⟨l, hl, hlp⟩ := logp_real x hx (cls t)
  have hz : ∀ y : EReal, 0 - y = -y := fun y => by rw [sub_eq_add_neg, zero_add]
  have hce : ceK x t = -(logp x (cls t)) := by
    unfold ceK
    rw [mask_sum t ht (logp x), hz]
  unfold termK termR
  rw [hce, mask_sum t ht a, hz, neg_neg, hlp, clamp_sq l hl]

/-! ### The batch sum -/

/-- The term of sample i, with the class picked by index. -/
def termN (X : (⟨2, ![1048576, 32]⟩ : Shape).Idx → EReal) (T : (⟨1, ![1048576]⟩ : Shape).Idx → BitVec 32)
    (A : (⟨1, ![32]⟩ : Shape).Idx → EReal) (i : ℕ) : EReal :=
  termR (rowN X i) (wts A) (cls (tgtN T i))

/-- A block's masked sum is the sum of the indexed terms of its 8192 samples. -/
theorem blockSum_eq (X : (⟨2, ![1048576, 32]⟩ : Shape).Idx → EReal) (T : (⟨1, ![1048576]⟩ : Shape).Idx → BitVec 32)
    (A : (⟨1, ![32]⟩ : Shape).Idx → EReal)
    (hX : ∀ i, ∃ r : ℝ, X i = (r : EReal))
    (hT : ∀ n : Fin 1048576, 0 ≤ (T (ix1 n)).toInt ∧ (T (ix1 n)).toInt < 32) (i : ℕ) :
    blockSum X T A i = ∑ r ∈ Finset.range 8192, termN X T A (i * 8192 + r) := by
  unfold blockSum
  rw [← Fin.sum_univ_eq_sum_range (fun r => termN X T A (i * 8192 + r)) 8192]
  refine Finset.sum_congr rfl (fun r _ => ?_)
  exact termK_eq_termR _ _ _ (fun k => hX _) (hT _)

/-- The running sum after block n is the sum of the indexed terms of the first (n + 1) * 8192 samples. -/
theorem accK_eq (X : (⟨2, ![1048576, 32]⟩ : Shape).Idx → EReal) (T : (⟨1, ![1048576]⟩ : Shape).Idx → BitVec 32)
    (A : (⟨1, ![32]⟩ : Shape).Idx → EReal)
    (hX : ∀ i, ∃ r : ℝ, X i = (r : EReal))
    (hT : ∀ n : Fin 1048576, 0 ≤ (T (ix1 n)).toInt ∧ (T (ix1 n)).toInt < 32) (n : ℕ) :
    accK X T A n = ∑ i ∈ Finset.range ((n + 1) * 8192), termN X T A i := by
  induction n with
  | zero =>
    show 0 + blockSum X T A 0 = _
    rw [zero_add, blockSum_eq X T A hX hT 0]
    refine Finset.sum_congr (by norm_num) (fun r _ => ?_)
    rw [Nat.zero_mul, Nat.zero_add]
  | succ n ih =>
    show accK X T A n + blockSum X T A (n + 1) = _
    rw [ih, blockSum_eq X T A hX hT (n + 1), show (n + 1 + 1) * 8192 = (n + 1) * 8192 + 8192 by ring,
      Finset.sum_range_add]

theorem totalK_eq_total (X : (⟨2, ![1048576, 32]⟩ : Shape).Idx → EReal) (T : (⟨1, ![1048576]⟩ : Shape).Idx → BitVec 32)
    (A : (⟨1, ![32]⟩ : Shape).Idx → EReal)
    (hX : ∀ i, ∃ r : ℝ, X i = (r : EReal))
    (hT : ∀ n : Fin 1048576, 0 ≤ (T (ix1 n)).toInt ∧ (T (ix1 n)).toInt < 32) :
    totalK X T A = total X T A := by
  unfold totalK total
  rw [accK_eq X T A hX hT 127, show (127 + 1) * 8192 = 1048576 by norm_num,
    ← Fin.sum_univ_eq_sum_range (fun i => termN X T A i) 1048576]
  rfl

end Cert.Focal

end
-- ==== Proof.PreFacts.lean ====
import proofs.«415715_j34703335751859_4_alg».proof.Pre_finite_inputs
import Idealize.ShloMosaic.PureOps.Ideal
import Idealize.ShloMosaic.Lib.ValueIdx
import Idealize.ShloMosaic.Lib.ReduceAll
import Idealize.ShloMosaic.Lib.StableHlo.Predicate

/-!
  What the precondition says of the inputs. The precondition is a conjunction of four "for all elements"
  statements, each an and-reduction of a one-bit comparison array down to a single bit: |X| < +∞, |A| < +∞,
  0 ≤ T (signed) and T < 32 (signed). When the whole conjunction is 1, every comparison is 1 at every index;
  read at one index, the float comparison says X there is neither +∞ nor −∞, hence a real number, and the two
  integer comparisons bound the signed value of T there.
-/

namespace Cert.Focal

open Idealize.ShloMosaic

/-- The shape with no axes has exactly one index. -/
instance subsingleton_scalar_idx : Subsingleton Cert.Pre_finite_inputs.S_.Idx :=
  ⟨fun a b => funext fun d => d.elim0⟩

/-- An extended real whose absolute value is below +∞ is a real number. -/
theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (by simp)

/-- Every element of X is a real number, and every element of T, read signed, lies in [0, 32). -/
theorem facts_of_pre [Cert.Pre_finite_inputs.Facts]
    (X : FVec Ideal Cert.Pre_finite_inputs.S1048576x32 .f32) (T : IVec Cert.Pre_finite_inputs.S1048576 32)
    (A : FVec Ideal Cert.Pre_finite_inputs.S32 .f32)
    (h : Cert.Pre_finite_inputs.fn (F := Ideal) X T A = fun _ => 1#1) :
    (∀ i, ∃ r : ℝ, X i = (r : EReal)) ∧
    (∀ n : Fin 1048576, 0 ≤ (T (ValueIdx.ix1 n)).toInt ∧ (T (ValueIdx.ix1 n)).toInt < 32) := by
  have h0 := congrFun h ValueIdx.ix0
  unfold Cert.Pre_finite_inputs.fn Cert.Pre_finite_inputs.fn_part1 at h0
  dsimp only at h0
  -- the conjunction of one-bit words is 1 only if each conjunct is
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, -⟩ := IntOp.andi_eq_one.1 (show IntOp.andi _ _ = 1#1 from h12)
  refine ⟨fun i => ?_, fun n => ⟨?_, ?_⟩⟩
  · -- |X i| < +∞: X i is neither infinity
    have e := Host.reduce_andi_all _ _ _ _ _ h1 i
    have htop : Ideal.ofBits .f32 0x7F800000#32 = ⊤ := by simp [Ideal.ofBits, Ideal.ieee]
    change Ideal.cmp .olt (max (X i) (-(X i))) (Ideal.ofBits .f32 0x7F800000#32) = 1#1 at e
    rw [htop] at e
    unfold Ideal.cmp at e
    exact real_of_abs_lt_top (X i) (of_decide_eq_true ((StableHlo.Predicate.ofBool_eq_one_iff _).1 e))
  · -- 0 ≤ T n, compared signed
    have e := Host.reduce_andi_all _ _ _ _ _ h3 (ValueIdx.ix1 n)
    have e' := IntOp.cmpi_sge.1 (show IntOp.cmpi .sge (T (ValueIdx.ix1 n)) (0#32) = 1#1 from e)
    have z : (0#32 : BitVec 32).toInt = 0 := by decide
    rw [z] at e'
    exact e'
  · -- T n < 32, compared signed
    have e := Host.reduce_andi_all _ _ _ _ _ h4 (ValueIdx.ix1 n)
    have e' := IntOp.cmpi_slt.1 (show IntOp.cmpi .slt (T (ValueIdx.ix1 n)) (32#32) = 1#1 from e)
    have z : (32#32 : BitVec 32).toInt = 32 := by decide
    rw [z] at e'
    exact e'

end Cert.Focal
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RefRun.lean ====
/-
  The reference program's run, with its result read stage by stage.

  The program is a straight line of 63 host operations in static single assignment: each writes one buffer of its
  own, none writes an argument, and no buffer is written twice. So what a buffer holds at the end of the line is decided
  where it is written: the operation's function of what its operands hold at the end. One equation per operation, in
  program order, each citing the equations of its operands, gives the returned scalar as the last stage function of the
  three arguments' launch contents; the arguments themselves are never written and keep their contents.

  The operations of the two called functions are stated over typed references, whose contents are moved between the
  buffer's own type and the value's type along an equation of types. Their stage equations are therefore stated for
  the contents read at the value's type, and proved once for arbitrary typed references, so that no step of the chain
  has to see through such a move at a particular buffer.
-/
import proofs.«415715_j34703335751859_4_alg».proof.Proof.RefReadGen
import proofs.«415715_j34703335751859_4_alg».proof.Proof.LibSsa
import Idealize.ShloMosaic.Lib.StableHlo.Run

noncomputable section

namespace Cert.Focal.RefRun

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

/-! ### Stage equations that take the operands' equations

In a line in single assignment the result of the k-th operation ends at the operation's function of what its operands
end at. Stated with the operands' final contents already named, so that a chain of stages composes by application,
without rewriting inside a term that mentions the whole line. -/

section Stage

variable {τ : Topo} {sig : RefSig} {Val : EltTy → Type}

theorem stage_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1))
    {vx : x.ty.Contents Val} (ex : after ops F0 (Proc.devRef .tc x) = vx) :
    after ops F0 (Proc.devRef .tc y) = f vx := by
  subst ex
  exact ssa_unary hW F0 k hk hx' hy'

theorem stage_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) {va : a.ty.Contents Val} {vb : b.ty.Contents Val}
    (ea : after ops F0 (Proc.devRef .tc a) = va) (eb : after ops F0 (Proc.devRef .tc b) = vb) :
    after ops F0 (Proc.devRef .tc y) = f va vb := by
  subst ea eb
  exact ssa_binary hW F0 k hk ha' hb' hy'

theorem stage_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) {vc : c.ty.Contents Val} {va : a.ty.Contents Val}
    {vb : b.ty.Contents Val} (ec : after ops F0 (Proc.devRef .tc c) = vc) (ea : after ops F0 (Proc.devRef .tc a) = va)
    (eb : after ops F0 (Proc.devRef .tc b) = vb) :
    after ops F0 (Proc.devRef .tc y) = f vc va vb := by
  subst ec ea eb
  exact ssa_ternary hW F0 k hk hc' ha' hb' hy'

theorem stage_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1))
    {vx : x.ty.Contents Val} (ex : after ops F0 (Proc.devRef .tc x) = vx) :
    after ops F0 (Proc.devRef .tc y) = fun i => he ▸ shapeCast y.ty.shape vx hn i := by
  subst ex
  exact ssa_reshape hW F0 k hk hx' hy'

/-! The same for operations over typed references, with every contents read at the value's type. -/

/-- Moving contents to the buffer's type and back is the identity. -/
theorem ofBuf_toBuf {T : BufTy} (x : TRef sig T) (v : T.Contents Val) : x.ofBuf (x.toBuf v) = v := by
  obtain ⟨r, rfl, _, _⟩ := x
  rfl

theorem tstage_nullary {ops : List (HloOp τ sig Val)} {W : List (Ref sig .tc)} (hW : WritesAre ops W)
    (F0 : Valuation τ sig Val) (k : ℕ) {Ty : BufTy} {y : TRef sig Ty} {v : Ty.Contents Val}
    (hk : ops[k]? = some (TRef.nullary y v)) (hy' : y.ref ∉ W.drop (k + 1)) :
    y.ofBuf (after ops F0 (Proc.devRef .tc y.ref)) = v := by
  rw [ssa_nullary hW F0 k hk hy']
  exact ofBuf_toBuf y v

theorem tstage_unary {ops : List (HloOp τ sig Val)} {W : List (Ref sig .tc)} (hW : WritesAre ops W)
    (F0 : Valuation τ sig Val) (k : ℕ) {Tx Ty : BufTy} {x : TRef sig Tx} {y : TRef sig Ty}
    {f : Tx.Contents Val → Ty.Contents Val}
    (hk : ops[k]? = some (TRef.unary x y f)) (hx' : x.ref ∉ W.drop k) (hy' : y.ref ∉ W.drop (k + 1))
    {vx : Tx.Contents Val} (ex : x.ofBuf (after ops F0 (Proc.devRef .tc x.ref)) = vx) :
    y.ofBuf (after ops F0 (Proc.devRef .tc y.ref)) = f vx := by
  subst ex
  rw [ssa_unary hW F0 k hk hx' hy']
  exact ofBuf_toBuf y _

theorem tstage_binary {ops : List (HloOp τ sig Val)} {W : List (Ref sig .tc)} (hW : WritesAre ops W)
    (F0 : Valuation τ sig Val) (k : ℕ) {Ta Tb Ty : BufTy} {a : TRef sig Ta} {b : TRef sig Tb} {y : TRef sig Ty}
    {f : Ta.Contents Val → Tb.Contents Val → Ty.Contents Val}
    (hk : ops[k]? = some (TRef.binary a b y f)) (ha' : a.ref ∉ W.drop k) (hb' : b.ref ∉ W.drop k)
    (hy' : y.ref ∉ W.drop (k + 1)) {va : Ta.Contents Val} {vb : Tb.Contents Val}
    (ea : a.ofBuf (after ops F0 (Proc.devRef .tc a.ref)) = va)
    (eb : b.ofBuf (after ops F0 (Proc.devRef .tc b.ref)) = vb) :
    y.ofBuf (after ops F0 (Proc.devRef .tc y.ref)) = f va vb := by
  subst ea eb
  rw [ssa_binary hW F0 k hk ha' hb' hy']
  exact ofBuf_toBuf y _

theorem tstage_ternary {ops : List (HloOp τ sig Val)} {W : List (Ref sig .tc)} (hW : WritesAre ops W)
    (F0 : Valuation τ sig Val) (k : ℕ) {Tc Ta Tb Ty : BufTy} {c : TRef sig Tc} {a : TRef sig Ta} {b : TRef sig Tb}
    {y : TRef sig Ty} {f : Tc.Contents Val → Ta.Contents Val → Tb.Contents Val → Ty.Contents Val}
    (hk : ops[k]? = some (TRef.ternary c a b y f)) (hc' : c.ref ∉ W.drop k) (ha' : a.ref ∉ W.drop k)
    (hb' : b.ref ∉ W.drop k) (hy' : y.ref ∉ W.drop (k + 1)) {vc : Tc.Contents Val} {va : Ta.Contents Val}
    {vb : Tb.Contents Val} (ec : c.ofBuf (after ops F0 (Proc.devRef .tc c.ref)) = vc)
    (ea : a.ofBuf (after ops F0 (Proc.devRef .tc a.ref)) = va)
    (eb : b.ofBuf (after ops F0 (Proc.devRef .tc b.ref)) = vb) :
    y.ofBuf (after ops F0 (Proc.devRef .tc y.ref)) = f vc va vb := by
  subst ec ea eb
  rw [ssa_ternary hW F0 k hk hc' ha' hb' hy']
  exact ofBuf_toBuf y _

theorem tstage_reshape {ops : List (HloOp τ sig Val)} {W : List (Ref sig .tc)} (hW : WritesAre ops W)
    (F0 : Valuation τ sig Val) (k : ℕ) {Tx Ty : BufTy} {x : TRef sig Tx} {y : TRef sig Ty} {he : Tx.elt = Ty.elt}
    {hn : Tx.shape.ShapeCasts Ty.shape}
    (hk : ops[k]? = some (TRef.reshape x y he hn)) (hx' : x.ref ∉ W.drop k) (hy' : y.ref ∉ W.drop (k + 1))
    {vx : Tx.Contents Val} (ex : x.ofBuf (after ops F0 (Proc.devRef .tc x.ref)) = vx) :
    y.ofBuf (after ops F0 (Proc.devRef .tc y.ref)) = fun i => he ▸ shapeCast Ty.shape vx hn i := by
  subst ex
  obtain ⟨xr, rfl, hxd, hxs⟩ := x
  obtain ⟨yr, rfl, hyd, hys⟩ := y
  exact ssa_reshape hW F0 k hk hx' hy'

end Stage

variable {F : FTy → Type} [FloatOps F]

/-- The references the 63 operations write, in program order. -/
abbrev W : List (Ref sig .tc) :=
  [main_call0_cst, main_call0_v0, main_call0_cst_0, main_call0_v1, main_call0_v2, main_call0_v3, main_call0_v4,
   main_call0_v5, main_call0_v6, main_call0_cst_1, main_call0_v7, main_call0_v8, main_call0_v9, main_call0_v10,
   main_v0, main_v1, main_call1_c, main_call1_v0, main_call1_v1, main_call1_c_0, main_call1_v2, main_call1_v3,
   main_call1_v4, main_call1_v5, main_call1_c_1, main_call1_c_2, main_call1_v6, main_call1_v7, main_call1_v8,
   main_call1_v9, main_call1_v10, main_call1_v11, main_call1_c_3, main_call1_v12, main_call1_v13, main_call1_cst,
   main_call1_v14, main_v2, main_v3, main_v4, main_v5, main_v6, main_c, main_v7, main_v8, main_c_0, main_v9,
   main_v10, main_v11, main_v12, main_v13, main_cst, main_v14, main_v15, main_cst_1, main_v16, main_v17, main_v18,
   main_v19, main_cst_2, main_v20, main_cst_3, main_v21]

/-- The k-th operation writes the k-th reference of the list and nothing else. -/
theorem hW : WritesAre (ops (F := F)) W :=
  .cons rfl (.cons rfl (.cons rfl (.cons rfl (.cons rfl (.cons rfl (.cons rfl (.cons rfl (.cons rfl (.cons rfl
  (.cons rfl (.cons rfl (.cons rfl (.cons rfl (.cons rfl (.cons rfl (.cons rfl (.cons rfl (.cons rfl (.cons rfl
  (.cons rfl (.cons rfl (.cons rfl (.cons rfl (.cons rfl (.cons rfl (.cons rfl (.cons rfl (.cons rfl (.cons rfl
  (.cons rfl (.cons rfl (.cons rfl (.cons rfl (.cons rfl (.cons rfl (.cons rfl (.cons rfl (.cons rfl (.cons rfl
  (.cons rfl (.cons rfl (.cons rfl (.cons rfl (.cons rfl (.cons rfl (.cons rfl (.cons rfl (.cons rfl (.cons rfl
  (.cons rfl (.cons rfl (.cons rfl (.cons rfl (.cons rfl (.cons rfl (.cons rfl (.cons rfl (.cons rfl (.cons rfl
  (.cons rfl (.cons rfl (.cons rfl .nil))))))))))))))))))))))))))))))))))))))))))))))))))))))))))))))

/-- The three arguments' contents at the start of the line. -/
abbrev in0 (V : Valuation τ sig (Elt F)) := V (Proc.devRef .tc main_arg0)
abbrev in1 (V : Valuation τ sig (Elt F)) := V (Proc.devRef .tc main_arg1)
abbrev in2 (V : Valuation τ sig (Elt F)) := V (Proc.devRef .tc main_arg2)

/-- What a buffer holds at the end of the line. -/
abbrev fin (V : Valuation τ sig (Elt F)) (b : Ref sig .tc) := after (ops (F := F)) V (Proc.devRef .tc b)

/-- What a typed reference's buffer holds at the end of the line, read at the value's type. -/
abbrev rd (V : Valuation τ sig (Elt F)) {T : BufTy} (x : TRef sig T) : T.Contents (Elt F) :=
  x.ofBuf (after (ops (F := F)) V (Proc.devRef .tc x.ref))

variable (V : Valuation τ sig (Elt F))

/-! ### The arguments are never written -/

theorem at_main_arg0 : fin V main_arg0 = in0 V := after_keep hW V (by decide)
theorem at_main_arg1 : fin V main_arg1 = in1 V := after_keep hW V (by decide)
theorem at_main_arg2 : fin V main_arg2 = in2 V := after_keep hW V (by decide)

/-- Reading the logits' buffer at the value's type changes nothing. -/
theorem ofBuf_main_arg0 (z : (Proc.devRef .tc main_arg0 : DevRef τ sig).ty.Contents (Elt F)) :
    (TRef.of (T := ⟨S1048576x32, .f32⟩) main_arg0).ofBuf z = z := rfl

theorem tat_main_arg0 : rd V (TRef.of (T := ⟨S1048576x32, .f32⟩) main_arg0) = in0 V :=
  (ofBuf_main_arg0 _).trans (at_main_arg0 V)

/-! ### The log-softmax of the logits (operations 0 to 14) -/

theorem tat_main_call0_cst : rd V (TRef.of (T := ⟨S_, .f32⟩) main_call0_cst) = val_main_call0_cst (F := F) := by
  refine (tstage_nullary hW V 0 rfl (by decide)).trans ?_
  rfl

theorem tat_main_call0_v0 :
    rd V (TRef.of (T := ⟨S1048576, .f32⟩) main_call0_v0) = val_main_call0_v0 (F := F) (in0 V) := by
  refine (tstage_binary hW V 1 rfl (by decide) (by decide) (by decide)
    (tat_main_arg0 V) (tat_main_call0_cst V)).trans ?_
  rfl

theorem tat_main_call0_cst_0 :
    rd V (TRef.of (T := ⟨S_, .f32⟩) main_call0_cst_0) = val_main_call0_cst_0 (F := F) := by
  refine (tstage_nullary hW V 2 rfl (by decide)).trans ?_
  rfl

theorem tat_main_call0_v1 : rd V (TRef.of (T := ⟨S1048576, .f32⟩) main_call0_v1) = val_main_call0_v1 (F := F) := by
  refine (tstage_unary hW V 3 rfl (by decide) (by decide) (tat_main_call0_cst_0 V)).trans ?_
  rfl

theorem tat_main_call0_v2 :
    rd V (TRef.of (T := ⟨S1048576, .f32⟩) main_call0_v2) = val_main_call0_v2 (F := F) (in0 V) := by
  refine (tstage_binary hW V 4 rfl (by decide) (by decide) (by decide)
    (tat_main_call0_v1 V) (tat_main_call0_v0 V)).trans ?_
  rfl

theorem tat_main_call0_v3 :
    rd V (TRef.of (T := ⟨S1048576x1, .f32⟩) main_call0_v3) = val_main_call0_v3 (F := F) (in0 V) := by
  refine (tstage_unary hW V 5 rfl (by decide) (by decide) (tat_main_call0_v2 V)).trans ?_
  rfl

theorem tat_main_call0_v4 :
    rd V (TRef.of (T := ⟨S1048576x32, .f32⟩) main_call0_v4) = val_main_call0_v4 (F := F) (in0 V) := by
  refine (tstage_unary hW V 6 rfl (by decide) (by decide) (tat_main_call0_v3 V)).trans ?_
  rfl

theorem tat_main_call0_v5 :
    rd V (TRef.of (T := ⟨S1048576x32, .f32⟩) main_call0_v5) = val_main_call0_v5 (F := F) (in0 V) := by
  refine (tstage_binary hW V 7 rfl (by decide) (by decide) (by decide)
    (tat_main_arg0 V) (tat_main_call0_v4 V)).trans ?_
  rfl

theorem tat_main_call0_v6 :
    rd V (TRef.of (T := ⟨S1048576x32, .f32⟩) main_call0_v6) = val_main_call0_v6 (F := F) (in0 V) := by
  refine (tstage_unary hW V 8 rfl (by decide) (by decide) (tat_main_call0_v5 V)).trans ?_
  rfl

theorem tat_main_call0_cst_1 :
    rd V (TRef.of (T := ⟨S_, .f32⟩) main_call0_cst_1) = val_main_call0_cst_1 (F := F) := by
  refine (tstage_nullary hW V 9 rfl (by decide)).trans ?_
  rfl

theorem tat_main_call0_v7 :
    rd V (TRef.of (T := ⟨S1048576, .f32⟩) main_call0_v7) = val_main_call0_v7 (F := F) (in0 V) := by
  refine (tstage_binary hW V 10 rfl (by decide) (by decide) (by decide)
    (tat_main_call0_v6 V) (tat_main_call0_cst_1 V)).trans ?_
  rfl

theorem tat_main_call0_v8 :
    rd V (TRef.of (T := ⟨S1048576x1, .f32⟩) main_call0_v8) = val_main_call0_v8 (F := F) (in0 V) := by
  refine (tstage_unary hW V 11 rfl (by decide) (by decide) (tat_main_call0_v7 V)).trans ?_
  rfl

theorem tat_main_call0_v9 :
    rd V (TRef.of (T := ⟨S1048576x1, .f32⟩) main_call0_v9) = val_main_call0_v9 (F := F) (in0 V) := by
  refine (tstage_unary hW V 12 rfl (by decide) (by decide) (tat_main_call0_v8 V)).trans ?_
  rfl

theorem tat_main_call0_v10 :
    rd V (TRef.of (T := ⟨S1048576x32, .f32⟩) main_call0_v10) = val_main_call0_v10 (F := F) (in0 V) := by
  refine (tstage_unary hW V 13 rfl (by decide) (by decide) (tat_main_call0_v9 V)).trans ?_
  rfl

theorem tat_main_v0 : rd V (TRef.of (T := ⟨S1048576x32, .f32⟩) main_v0) = val_main_v0 (F := F) (in0 V) := by
  refine (tstage_binary hW V 14 rfl (by decide) (by decide) (by decide)
    (tat_main_call0_v5 V) (tat_main_call0_v10 V)).trans ?_
  rfl

/-! ### The log-probability of each sample's class (operations 15 to 37) -/

theorem at_main_v1 : fin V main_v1 = val_main_v1 (F := F) (in1 V) := by
  refine (stage_unary hW V 15 rfl (by decide) (by decide) (at_main_arg1 V)).trans ?_
  rfl

/-- Reading the class column's buffer at the value's type changes nothing. -/
theorem ofBuf_main_v1 (z : (Proc.devRef .tc main_v1 : DevRef τ sig).ty.Contents (Elt F)) :
    (TRef.of (T := ⟨S1048576x1, .i32⟩) main_v1).ofBuf z = z := rfl

theorem tat_main_v1 : rd V (TRef.of (T := ⟨S1048576x1, .i32⟩) main_v1) = val_main_v1 (F := F) (in1 V) :=
  (ofBuf_main_v1 _).trans (at_main_v1 V)

theorem tat_main_call1_c : rd V (TRef.of (T := ⟨S_, .i32⟩) main_call1_c) = val_main_call1_c (F := F) := by
  refine (tstage_nullary hW V 16 rfl (by decide)).trans ?_
  rfl

theorem tat_main_call1_v0 :
    rd V (TRef.of (T := ⟨S1048576x1, .i32⟩) main_call1_v0) = val_main_call1_v0 (F := F) := by
  refine (tstage_unary hW V 17 rfl (by decide) (by decide) (tat_main_call1_c V)).trans ?_
  rfl

theorem tat_main_call1_v1 :
    rd V (TRef.of (T := ⟨S1048576x1, .i1⟩) main_call1_v1) = val_main_call1_v1 (F := F) (in1 V) := by
  refine (tstage_binary hW V 18 rfl (by decide) (by decide) (by decide)
    (tat_main_v1 V) (tat_main_call1_v0 V)).trans ?_
  rfl

theorem tat_main_call1_c_0 : rd V (TRef.of (T := ⟨S_, .i32⟩) main_call1_c_0) = val_main_call1_c_0 (F := F) := by
  refine (tstage_nullary hW V 19 rfl (by decide)).trans ?_
  rfl

theorem tat_main_call1_v2 :
    rd V (TRef.of (T := ⟨S1048576x1, .i32⟩) main_call1_v2) = val_main_call1_v2 (F := F) := by
  refine (tstage_unary hW V 20 rfl (by decide) (by decide) (tat_main_call1_c_0 V)).trans ?_
  rfl

theorem tat_main_call1_v3 :
    rd V (TRef.of (T := ⟨S1048576x1, .i32⟩) main_call1_v3) = val_main_call1_v3 (F := F) (in1 V) := by
  refine (tstage_binary hW V 21 rfl (by decide) (by decide) (by decide)
    (tat_main_v1 V) (tat_main_call1_v2 V)).trans ?_
  rfl

theorem tat_main_call1_v4 :
    rd V (TRef.of (T := ⟨S1048576x1, .i32⟩) main_call1_v4) = val_main_call1_v4 (F := F) (in1 V) := by
  refine (tstage_ternary hW V 22 rfl (by decide) (by decide) (by decide) (by decide)
    (tat_main_call1_v1 V) (tat_main_call1_v3 V) (tat_main_v1 V)).trans ?_
  rfl

theorem tat_main_call1_v5 :
    rd V (TRef.of (T := ⟨S1048576x1x1, .i32⟩) main_call1_v5) = val_main_call1_v5 (F := F) (in1 V) := by
  refine (tstage_reshape hW V 23 rfl (by decide) (by decide) (tat_main_call1_v4 V)).trans ?_
  rfl

theorem tat_main_call1_c_1 : rd V (TRef.of (T := ⟨S1, .i32⟩) main_call1_c_1) = val_main_call1_c_1 (F := F) := by
  refine (tstage_nullary hW V 24 rfl (by decide)).trans ?_
  rfl

theorem tat_main_call1_c_2 : rd V (TRef.of (T := ⟨S_, .i32⟩) main_call1_c_2) = val_main_call1_c_2 (F := F) := by
  refine (tstage_nullary hW V 25 rfl (by decide)).trans ?_
  rfl

theorem tat_main_call1_v6 :
    rd V (TRef.of (T := ⟨S1048576x1x1, .i32⟩) main_call1_v6) = val_main_call1_v6 (F := F) := by
  refine (tstage_unary hW V 26 rfl (by decide) (by decide) (tat_main_call1_c_2 V)).trans ?_
  rfl

theorem tat_main_call1_v7 :
    rd V (TRef.of (T := ⟨S1048576x1x1, .i1⟩) main_call1_v7) = val_main_call1_v7 (F := F) (in1 V) := by
  refine (tstage_binary hW V 27 rfl (by decide) (by decide) (by decide)
    (tat_main_call1_v5 V) (tat_main_call1_v6 V)).trans ?_
  rfl

theorem tat_main_call1_v8 : rd V (TRef.of (T := ⟨S1x1x1, .i32⟩) main_call1_v8) = val_main_call1_v8 (F := F) := by
  refine (tstage_unary hW V 28 rfl (by decide) (by decide) (tat_main_call1_c_1 V)).trans ?_
  rfl

theorem tat_main_call1_v9 :
    rd V (TRef.of (T := ⟨S1048576x1x1, .i32⟩) main_call1_v9) = val_main_call1_v9 (F := F) := by
  refine (tstage_unary hW V 29 rfl (by decide) (by decide) (tat_main_call1_v8 V)).trans ?_
  rfl

theorem tat_main_call1_v10 :
    rd V (TRef.of (T := ⟨S1048576x1x1, .i1⟩) main_call1_v10) = val_main_call1_v10 (F := F) (in1 V) := by
  refine (tstage_binary hW V 30 rfl (by decide) (by decide) (by decide)
    (tat_main_call1_v5 V) (tat_main_call1_v9 V)).trans ?_
  rfl

theorem tat_main_call1_v11 :
    rd V (TRef.of (T := ⟨S1048576x1x1, .i1⟩) main_call1_v11) = val_main_call1_v11 (F := F) (in1 V) := by
  refine (tstage_binary hW V 31 rfl (by decide) (by decide) (by decide)
    (tat_main_call1_v7 V) (tat_main_call1_v10 V)).trans ?_
  rfl

theorem tat_main_call1_c_3 : rd V (TRef.of (T := ⟨S_, .i1⟩) main_call1_c_3) = val_main_call1_c_3 (F := F) := by
  refine (tstage_nullary hW V 32 rfl (by decide)).trans ?_
  rfl

theorem tat_main_call1_v12 :
    rd V (TRef.of (T := ⟨S1048576x1, .i1⟩) main_call1_v12) = val_main_call1_v12 (F := F) (in1 V) := by
  refine (tstage_binary hW V 33 rfl (by decide) (by decide) (by decide)
    (tat_main_call1_v11 V) (tat_main_call1_c_3 V)).trans ?_
  rfl

theorem tat_main_call1_v13 :
    rd V (TRef.of (T := ⟨S1048576x1, .f32⟩) main_call1_v13) = val_main_call1_v13 (F := F) (in0 V) (in1 V) := by
  refine (tstage_binary hW V 34 rfl (by decide) (by decide) (by decide)
    (tat_main_v0 V) (tat_main_call1_v5 V)).trans ?_
  rfl

theorem tat_main_call1_cst : rd V (TRef.of (T := ⟨S_, .f32⟩) main_call1_cst) = val_main_call1_cst (F := F) := by
  refine (tstage_nullary hW V 35 rfl (by decide)).trans ?_
  rfl

theorem tat_main_call1_v14 :
    rd V (TRef.of (T := ⟨S1048576x1, .f32⟩) main_call1_v14) = val_main_call1_v14 (F := F) := by
  refine (tstage_unary hW V 36 rfl (by decide) (by decide) (tat_main_call1_cst V)).trans ?_
  rfl

theorem tat_main_v2 :
    rd V (TRef.of (T := ⟨S1048576x1, .f32⟩) main_v2) = val_main_v2 (F := F) (in0 V) (in1 V) := by
  refine (tstage_ternary hW V 37 rfl (by decide) (by decide) (by decide) (by decide)
    (tat_main_call1_v12 V) (tat_main_call1_v13 V) (tat_main_call1_v14 V)).trans ?_
  rfl

/-- Reading the picked log-probabilities' buffer at the value's type changes nothing. -/
theorem ofBuf_main_v2 (z : (Proc.devRef .tc main_v2 : DevRef τ sig).ty.Contents (Elt F)) :
    (TRef.of (T := ⟨S1048576x1, .f32⟩) main_v2).ofBuf z = z := rfl

theorem at_main_v2 : fin V main_v2 = val_main_v2 (F := F) (in0 V) (in1 V) :=
  (ofBuf_main_v2 _).symm.trans (tat_main_v2 V)

/-! ### The focal term of each sample and the mean (operations 38 to 62) -/

theorem at_main_v3 : fin V main_v3 = val_main_v3 (F := F) (in0 V) (in1 V) := by
  refine (stage_reshape hW V 38 rfl (by decide) (by decide) (at_main_v2 V)).trans ?_
  rfl

theorem at_main_v4 : fin V main_v4 = val_main_v4 (F := F) (in0 V) (in1 V) := by
  refine (stage_unary hW V 39 rfl (by decide) (by decide) (at_main_v3 V)).trans ?_
  rfl

theorem at_main_v5 : fin V main_v5 = val_main_v5 (F := F) (in0 V) (in1 V) := by
  refine (stage_unary hW V 40 rfl (by decide) (by decide) (at_main_v4 V)).trans ?_
  rfl

theorem at_main_v6 : fin V main_v6 = val_main_v6 (F := F) (in0 V) (in1 V) := by
  refine (stage_unary hW V 41 rfl (by decide) (by decide) (at_main_v5 V)).trans ?_
  rfl

theorem at_main_c : fin V main_c = val_main_c (F := F) := by
  refine (ssa_nullary hW V 42 rfl (by decide)).trans ?_
  rfl

theorem at_main_v7 : fin V main_v7 = val_main_v7 (F := F) := by
  refine (stage_unary hW V 43 rfl (by decide) (by decide) (at_main_c V)).trans ?_
  rfl

theorem at_main_v8 : fin V main_v8 = val_main_v8 (F := F) (in1 V) := by
  refine (stage_binary hW V 44 rfl (by decide) (by decide) (by decide) (at_main_arg1 V) (at_main_v7 V)).trans ?_
  rfl

theorem at_main_c_0 : fin V main_c_0 = val_main_c_0 (F := F) := by
  refine (ssa_nullary hW V 45 rfl (by decide)).trans ?_
  rfl

theorem at_main_v9 : fin V main_v9 = val_main_v9 (F := F) := by
  refine (stage_unary hW V 46 rfl (by decide) (by decide) (at_main_c_0 V)).trans ?_
  rfl

theorem at_main_v10 : fin V main_v10 = val_main_v10 (F := F) (in1 V) := by
  refine (stage_binary hW V 47 rfl (by decide) (by decide) (by decide) (at_main_arg1 V) (at_main_v9 V)).trans ?_
  rfl

theorem at_main_v11 : fin V main_v11 = val_main_v11 (F := F) (in1 V) := by
  refine (stage_ternary hW V 48 rfl (by decide) (by decide) (by decide) (by decide)
    (at_main_v8 V) (at_main_v10 V) (at_main_arg1 V)).trans ?_
  rfl

theorem at_main_v12 : fin V main_v12 = val_main_v12 (F := F) (in1 V) := by
  refine (stage_unary hW V 49 rfl (by decide) (by decide) (at_main_v11 V)).trans ?_
  rfl

theorem at_main_v13 : fin V main_v13 = val_main_v13 (F := F) (in1 V) (in2 V) := by
  refine (stage_binary hW V 50 rfl (by decide) (by decide) (by decide) (at_main_arg2 V) (at_main_v12 V)).trans ?_
  rfl

theorem at_main_cst : fin V main_cst = val_main_cst (F := F) := by
  refine (ssa_nullary hW V 51 rfl (by decide)).trans ?_
  rfl

theorem at_main_v14 : fin V main_v14 = val_main_v14 (F := F) := by
  refine (stage_unary hW V 52 rfl (by decide) (by decide) (at_main_cst V)).trans ?_
  rfl

theorem at_main_v15 : fin V main_v15 = val_main_v15 (F := F) (in0 V) (in1 V) := by
  refine (stage_binary hW V 53 rfl (by decide) (by decide) (by decide) (at_main_v14 V) (at_main_v6 V)).trans ?_
  rfl

theorem at_main_cst_1 : fin V main_cst_1 = val_main_cst_1 (F := F) := by
  refine (ssa_nullary hW V 54 rfl (by decide)).trans ?_
  rfl

theorem at_main_v16 : fin V main_v16 = val_main_v16 (F := F) := by
  refine (stage_unary hW V 55 rfl (by decide) (by decide) (at_main_cst_1 V)).trans ?_
  rfl

theorem at_main_v17 : fin V main_v17 = val_main_v17 (F := F) (in0 V) (in1 V) := by
  refine (stage_binary hW V 56 rfl (by decide) (by decide) (by decide) (at_main_v15 V) (at_main_v16 V)).trans ?_
  rfl

theorem at_main_v18 : fin V main_v18 = val_main_v18 (F := F) (in0 V) (in1 V) (in2 V) := by
  refine (stage_binary hW V 57 rfl (by decide) (by decide) (by decide) (at_main_v13 V) (at_main_v17 V)).trans ?_
  rfl

theorem at_main_v19 : fin V main_v19 = val_main_v19 (F := F) (in0 V) (in1 V) (in2 V) := by
  refine (stage_binary hW V 58 rfl (by decide) (by decide) (by decide) (at_main_v18 V) (at_main_v4 V)).trans ?_
  rfl

theorem at_main_cst_2 : fin V main_cst_2 = val_main_cst_2 (F := F) := by
  refine (ssa_nullary hW V 59 rfl (by decide)).trans ?_
  rfl

theorem at_main_v20 : fin V main_v20 = val_main_v20 (F := F) (in0 V) (in1 V) (in2 V) := by
  refine (stage_binary hW V 60 rfl (by decide) (by decide) (by decide) (at_main_v19 V) (at_main_cst_2 V)).trans ?_
  rfl

theorem at_main_cst_3 : fin V main_cst_3 = val_main_cst_3 (F := F) := by
  refine (ssa_nullary hW V 61 rfl (by decide)).trans ?_
  rfl

theorem at_main_v21 : fin V main_v21 = val_main_v21 (F := F) (in0 V) (in1 V) (in2 V) := by
  refine (stage_binary hW V 62 rfl (by decide) (by decide) (by decide) (at_main_v20 V) (at_main_cst_3 V)).trans ?_
  rfl

/-! ### The run -/

/-- On every device, from any memory with zero counters, every weakly fair execution of the reference program
    terminates with the returned scalar at the last stage function of the three arguments' contents at launch, and with
    the three arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = val_main_v21 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun r h c =>
      ⟨(h c main_v21).trans (at_main_v21 (launchContents m c)),
       (h c main_arg0).trans (at_main_arg0 (launchContents m c)),
       (h c main_arg1).trans (at_main_arg1 (launchContents m c)),
       (h c main_arg2).trans (at_main_arg2 (launchContents m c))⟩)
    (run_after m ρ)

end Cert.Focal.RefRun

end
-- ==== Proof.RefValue.lean ====
/-
  The reference program's result, read stage by stage, is the batch loss of the specification.

  The reference computes a log-softmax of every row, picks the log-probability of the row's class by a gather, negates
  it into the cross-entropy, weights it by (1 - p)^2 and the class weight picked by a second gather, sums the 1048576
  terms and divides by their number. Each stage is read at an index; for classes in range the wrapped class word is the
  word itself, the in-range mask is one, and both gathers read at the class the word names.
-/
import proofs.«415715_j34703335751859_4_alg».proof.Proof.RefReadGen
import proofs.«415715_j34703335751859_4_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll

noncomputable section

open scoped BigOperators

namespace Cert.Focal.Ref

open Cert.ReferenceIdeal Cert.ReferenceIdeal.Gen Cert.ReferenceIdeal.Read Idealize.ShloMosaic Idealize.ShloMosaic.ValueIdx

/-! ## The log-softmax -/

/-- Row n's index with class k put back on the reduced axis is (n, k). -/
theorem lift_row (h : S1048576x32.Reduces [1] S1048576) (n : Fin 1048576) (k : Fin 32) :
    h.lift (ix1 n) k = ix2 n k := by
  funext c; apply Fin.ext
  match c with
  | ⟨0, _⟩ => rfl
  | ⟨1, _⟩ => rfl

/-- The reduce with a maximum body over the classes, at row n, is the fold of max over the row from minus infinity. -/
theorem rowReduce_eq (X : FVec Ideal S1048576x32 .f32) (n : Fin 1048576) :
    val_main_call0_v0 (F := Ideal) X (ix1 n) = Cert.Focal.rowMax (fun k => X (ix2 n k)) := by
  have h : S1048576x32.Reduces [1] S1048576 := by decide
  unfold val_main_call0_v0
  rw [Host.reduce_eq_fold_single FloatOps.maximumf X _ reducesTo_S1048576x32_S1048576_d1 h h_S_]
  have hf : (X ∘ h.lift (ix1 n)) = fun k : Fin 32 => X (ix2 n k) := funext fun k => congrArg X (lift_row h n k)
  unfold Cert.Focal.rowMax
  exact congrArg (fun f => Finset.fold max (Ideal.ofBits .f32 0xFF800000#32) f (Finset.univ : Finset (Fin 32))) hf

/-- The maximum of that reduce with minus infinity is the row maximum again: the fold is at least its start value. -/
theorem rowMax_eq (X : FVec Ideal S1048576x32 .f32) (n : Fin 1048576) :
    val_main_call0_v2 (F := Ideal) X (ix1 n) = Cert.Focal.rowMax (fun k => X (ix2 n k)) := by
  rw [val_main_call0_v2_apply, val_main_call0_v1_apply, val_main_call0_cst_0_apply, rowReduce_eq]
  show max (Ideal.ofBits .f32 0xFF800000#32) (Cert.Focal.rowMax fun k => X (ix2 n k)) = _
  exact max_eq_right ((Finset.le_fold_max _).2 (Or.inl le_rfl))

/-- Row n's shifted logits: the logit minus the row maximum. -/
theorem shifted_apply (X : FVec Ideal S1048576x32 .f32) (n : Fin 1048576) (k : Fin 32) :
    val_main_call0_v5 (F := Ideal) X (ix2 n k) = X (ix2 n k) - Cert.Focal.rowMax (fun k => X (ix2 n k)) := by
  have e : idx_main_call0_v3 (idx_main_call0_v4 (ix2 n k)) = ix1 n := by
    funext a; match a with | ⟨0, _⟩ => rfl
  rw [val_main_call0_v5_apply, val_main_call0_v4_apply, val_main_call0_v3_apply, e, rowMax_eq]
  rfl

/-- Row n's sum of the shifted exponentials: the float zero plus the sum over the classes. -/
theorem expSum_apply (X : FVec Ideal S1048576x32 .f32) (n : Fin 1048576) :
    val_main_call0_v7 (F := Ideal) X (ix1 n)
      = ∑ j : Fin 32, Ideal.exp (X (ix2 n j) - Cert.Focal.rowMax (fun k => X (ix2 n k))) := by
  rw [val_main_call0_v7_apply, val_main_call0_cst_1_apply]
  show Ideal.ofBits .f32 0x00000000#32 + _ = _
  rw [Ideal.ofBits_zero_f32, zero_add]
  refine Finset.sum_congr rfl fun j _ => ?_
  have e : idx_main_call0_v7 (ix1 n) j = ix2 n j := by
    funext a; match a with | ⟨0, _⟩ => rfl | ⟨1, _⟩ => rfl
  rw [val_main_call0_v6_apply, e, shifted_apply]
  rfl

/-- The log-softmax at (n, k) is the log-probability of class k for row n. -/
theorem logSoftmax_apply (X : FVec Ideal S1048576x32 .f32) (n : Fin 1048576) (k : Fin 32) :
    val_main_v0 (F := Ideal) X (ix2 n k) = Cert.Focal.logp (fun k => X (ix2 n k)) k := by
  have e : idx_main_call0_v8 (idx_main_call0_v10 (ix2 n k)) = ix1 n := by
    funext a; match a with | ⟨0, _⟩ => rfl
  rw [val_main_v0_apply, shifted_apply, val_main_call0_v10_apply, val_main_call0_v9_apply, val_main_call0_v8_apply, e,
    expSum_apply]
  rfl

/-! ## The two gathers, read at an index

Both gathers pick one element per sample. The first reads a matrix [N, K] at row n and at the column its start index
[n, 0, 0] names: the rows are a batching axis of operand and start indices, the column axis is collapsed. The second
reads a vector [K] at the position the start index [n, 0] names. A start index is read signed and clamped into
[0, K - 1]. The extents and the index width are variables. -/

section Gathers
variable {α : Type}

/-- The dimension numbers of the gather along the columns of a matrix with the rows a batching axis. -/
abbrev alongDims (N K : Nat)
    (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The gather along the columns at (n, 0): row n of the operand at the column the start index [n, 0, 0] names, read
    signed and clamped into [0, K - 1]. -/
theorem gather_along_apply {N K w : Nat} (hK : 0 < K)
    (wf : GatherDims.WF ⟨2, ![N, K]⟩ ⟨3, ![N, 1, 1]⟩ ⟨2, ![N, 1]⟩ [] [1] [0] [1] [0] 2 ![1, 1])
    (x : (⟨2, ![N, K]⟩ : Shape).Idx → α) (idx : IVec ⟨3, ![N, 1, 1]⟩ w) (n : Fin N) :
    Host.gather (alongDims N K wf) x idx (ix2 n (0 : Fin 1))
      = x (ix2 n ⟨min (idx (ix3 n (0 : Fin 1) (0 : Fin 1))).toInt.toNat (K - 1), by omega⟩) := by
  have h01 : ¬ (0 : Fin 2) = 1 := fun h => absurd (congrArg Fin.val h) Nat.zero_ne_one
  have h10 : ¬ (1 : Fin 2) = 0 := fun h => absurd (congrArg Fin.val h) Nat.one_ne_zero
  unfold Host.gather
  congr 1
  funext a
  refine Fin.ext ?_
  match a with
  | ⟨0, _⟩ =>
    show (alongDims N K wf).start (ix2 n 0) idx 0 + (alongDims N K wf).batchCoord (ix2 n 0) 0
      + (alongDims N K wf).offCoord (ix2 n 0) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims N K wf).operandBatchingDims from List.mem_singleton.mpr rfl)]
    rfl
  | ⟨1, _⟩ =>
    show (alongDims N K wf).start (ix2 n 0) idx 1 + (alongDims N K wf).batchCoord (ix2 n 0) 1
      + (alongDims N K wf).offCoord (ix2 n 0) 1 = _
    rw [GatherDims.batchCoord_eq_zero _ _ _ (fun h => h10 (List.mem_singleton.mp h)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims N K wf).startIndexMap from List.mem_singleton.mpr rfl)]
    have hsi : (alongDims N K wf).siIdx (ix2 n (0 : Fin 1)) ⟨List.idxOf (1 : Fin 2) (alongDims N K wf).startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- The dimension numbers of the gather of single elements of a vector. -/
abbrev pickDims (K N : Nat) (wf : GatherDims.WF ⟨1, ![K]⟩ ⟨2, ![N, 1]⟩ ⟨1, ![N]⟩ [] [0] [] [0] [] 1 ![1]) :
    GatherDims ⟨1, ![K]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- The gather of single elements at n: the operand at the position the start index [n, 0] names, read signed and
    clamped into [0, K - 1]. -/
theorem gather_pick_apply {K N w : Nat} (hK : 0 < K)
    (wf : GatherDims.WF ⟨1, ![K]⟩ ⟨2, ![N, 1]⟩ ⟨1, ![N]⟩ [] [0] [] [0] [] 1 ![1])
    (x : (⟨1, ![K]⟩ : Shape).Idx → α) (idx : IVec ⟨2, ![N, 1]⟩ w) (n : Fin N) :
    Host.gather (pickDims K N wf) x idx (ix1 n)
      = x (ix1 ⟨min (idx (ix2 n (0 : Fin 1))).toInt.toNat (K - 1), by omega⟩) := by
  unfold Host.gather
  congr 1
  funext a
  obtain rfl : a = 0 := Subsingleton.elim _ _
  refine Fin.ext ?_
  show (pickDims K N wf).start (ix1 n) idx 0 + (pickDims K N wf).batchCoord (ix1 n) 0
    + (pickDims K N wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims K N wf).startIndexMap from List.mem_singleton.mpr rfl)]
  have hsi : (pickDims K N wf).siIdx (ix1 n) ⟨List.idxOf (0 : Fin 1) (pickDims K N wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

end Gathers

/-! ## The class words -/

/-- A class word that is not negative is left as it is by the wrap-around of negative indices. -/
theorem wrap_eq (t u : BitVec 32) (h : 0 ≤ t.toInt) :
    Scalar.select (IntOp.cmpi .slt t 0#32) u t = t := by
  refine if_neg fun hc => ?_
  have h1 := IntOp.cmpi_slt.1 hc
  have h0 : (0#32 : BitVec 32).toInt = 0 := by decide
  omega

/-- A class word in range passes the range test: it is at least 0 and at most 31. -/
theorem inRange_eq (t : BitVec 32) (h : 0 ≤ t.toInt ∧ t.toInt < 32) :
    IntOp.andi (IntOp.cmpi .sge t 0#32) (IntOp.cmpi .sle t 31#32) = 1#1 := by
  have h0 : (0#32 : BitVec 32).toInt = 0 := by decide
  have h31 : (31#32 : BitVec 32).toInt = 31 := by decide
  exact IntOp.andi_eq_one.2 ⟨IntOp.cmpi_sge.2 (by omega), IntOp.cmpi_sle.2 (by omega)⟩

/-- A class word in range, read signed and clamped into [0, 31], names its class. -/
theorem clamp_eq_cls (s t : BitVec 32) (hs : s = t) (h : 0 ≤ t.toInt ∧ t.toInt < 32)
    (hlt : min s.toInt.toNat (32 - 1) < 32) :
    (⟨min s.toInt.toNat (32 - 1), hlt⟩ : Fin 32) = Cert.Focal.cls t := by
  subst hs
  refine Fin.ext ?_
  show min s.toInt.toNat (32 - 1) = s.toNat % 32
  have ht : s.toInt = (s.toNat : Int) := by
    have := BitVec.toInt_eq_toNat_cond s
    have hlt := s.isLt
    split at this <;> omega
  omega

/-- The start indices of the first gather at [n, 0, 0]: sample n's class word. -/
theorem startIdx_apply (T : IVec S1048576 32) (n : Fin 1048576) (h : 0 ≤ (T (ix1 n)).toInt) :
    val_main_call1_v5 (F := Ideal) T (ix3 n (0 : Fin 1) (0 : Fin 1)) = T (ix1 n) := by
  have e5 : idx_main_call1_v5 (ix3 n (0 : Fin 1) (0 : Fin 1)) = ix2 n (0 : Fin 1) := by
    funext a
    match a with
    | ⟨0, _⟩ => exact Fin.ext (show ((n.val * 1 + 0) * 1 + 0) / 1 = n.val by omega)
    | ⟨1, _⟩ => rfl
  have e1 : idx_main_v1 (ix2 n (0 : Fin 1)) = ix1 n := by
    funext a; match a with | ⟨0, _⟩ => rfl
  rw [val_main_call1_v5_apply, e5, val_main_call1_v4_apply, val_main_call1_v1_apply, val_main_v1_apply, e1,
    val_main_call1_v0_apply, val_main_call1_c_apply]
  exact wrap_eq _ _ h

/-! ## Picking the log-probability of the class -/

/-- The index [n, 0] with coordinate k put back on the reduced unit axis is [n, 0, 0]. -/
theorem lift_unit (h : S1048576x1x1.Reduces [2] S1048576x1) (n : Fin 1048576) (k : Fin 1) :
    h.lift (ix2 n (0 : Fin 1)) k = ix3 n (0 : Fin 1) (0 : Fin 1) := by
  funext c; apply Fin.ext
  match c with
  | ⟨0, _⟩ => rfl
  | ⟨1, _⟩ => rfl
  | ⟨2, _⟩ =>
    have hk : k.val < 1 := k.isLt
    show k.val = 0
    omega

/-- For a class word in range the in-range mask at [n, 0], the range test reduced by and over a unit axis, is one. -/
theorem mask_apply (T : IVec S1048576 32) (n : Fin 1048576)
    (h : 0 ≤ (T (ix1 n)).toInt ∧ (T (ix1 n)).toInt < 32) :
    val_main_call1_v12 (F := Ideal) T (ix2 n (0 : Fin 1)) = 1#1 := by
  have hr : S1048576x1x1.Reduces [2] S1048576x1 := by decide
  have fold1 : ∀ (f : Fin 1 → BitVec 1) (b : BitVec 1),
      (Finset.univ : Finset (Fin 1)).fold IntOp.andi b f = IntOp.andi (f 0) b := fun f b => by
    rw [Finset.univ_unique, Finset.fold_singleton]; rfl
  unfold val_main_call1_v12
  rw [Host.reduce_eq_fold_single IntOp.andi _ _ reducesTo_S1048576x1x1_S1048576x1_d2 hr h_S_]
  refine (fold1 _ _).trans ?_
  show IntOp.andi (val_main_call1_v11 (F := Ideal) T (hr.lift (ix2 n (0 : Fin 1)) (0 : Fin 1))) 1#1 = 1#1
  rw [lift_unit hr n 0, val_main_call1_v11_apply, val_main_call1_v7_apply, val_main_call1_v10_apply,
    startIdx_apply T n h.1, val_main_call1_v6_apply, val_main_call1_c_2_apply, val_main_call1_v9_apply,
    val_main_call1_v8_apply, val_main_call1_c_1_apply, inRange_eq _ h]
  rfl

/-- For a class word in range the pick along the classes at [n, 0] is the log-probability of the class. -/
theorem takeAlong_apply (X : FVec Ideal S1048576x32 .f32) (T : IVec S1048576 32) (n : Fin 1048576)
    (h : 0 ≤ (T (ix1 n)).toInt ∧ (T (ix1 n)).toInt < 32) :
    val_main_v2 (F := Ideal) X T (ix2 n (0 : Fin 1))
      = Cert.Focal.logp (fun k => X (ix2 n k)) (Cert.Focal.cls (T (ix1 n))) := by
  rw [val_main_v2_apply, mask_apply T n h, select_one]
  unfold val_main_call1_v13
  refine (gather_along_apply (by norm_num) gather_S1048576x32_S1048576x1x1_S1048576x1_n_1_0_0_1_2_11_wf
    (val_main_v0 (F := Ideal) X) (val_main_call1_v5 (F := Ideal) T) n).trans ?_
  rw [clamp_eq_cls _ _ (startIdx_apply T n h.1) h, logSoftmax_apply]

/-- The cross-entropy of sample n: the negated log-probability of its class. -/
theorem ce_apply (X : FVec Ideal S1048576x32 .f32) (T : IVec S1048576 32) (n : Fin 1048576)
    (h : 0 ≤ (T (ix1 n)).toInt ∧ (T (ix1 n)).toInt < 32) :
    val_main_v4 (F := Ideal) X T (ix1 n)
      = -(Cert.Focal.logp (fun k => X (ix2 n k)) (Cert.Focal.cls (T (ix1 n)))) := by
  have e : idx_main_v3 (ix1 n) = ix2 n (0 : Fin 1) := by
    funext a
    match a with
    | ⟨0, _⟩ => exact Fin.ext (Nat.div_one _)
    | ⟨1, _⟩ => rfl
  rw [val_main_v4_apply, val_main_v3_apply, e, takeAlong_apply X T n h]
  rfl

/-! ## The class weight -/

/-- For a class word in range the weight picked for sample n is the weight of its class. -/
theorem weight_apply (T : IVec S1048576 32) (A : FVec Ideal S32 .f32) (n : Fin 1048576)
    (h : 0 ≤ (T (ix1 n)).toInt ∧ (T (ix1 n)).toInt < 32) :
    val_main_v13 (F := Ideal) T A (ix1 n) = Cert.Focal.wts A (Cert.Focal.cls (T (ix1 n))) := by
  have e12 : idx_main_v12 (ix2 n (0 : Fin 1)) = ix1 n := by
    funext a; match a with | ⟨0, _⟩ => rfl
  have hidx : val_main_v12 (F := Ideal) T (ix2 n (0 : Fin 1)) = T (ix1 n) := by
    rw [val_main_v12_apply, e12, val_main_v11_apply, val_main_v8_apply, val_main_v7_apply, val_main_c_apply]
    exact wrap_eq _ _ h.1
  unfold val_main_v13
  refine (gather_pick_apply (by norm_num) gather_S32_S1048576x1_S1048576_n_0_n_n_0_1_1_wf A
    (val_main_v12 (F := Ideal) T) n).trans ?_
  rw [clamp_eq_cls _ _ hidx h]
  rfl

/-! ## The focal term and the batch mean -/

/-- The float word 0x40000000 is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- Sample n's term of the reference is the focal term of its row, the weights and its class. -/
theorem term_apply (X : FVec Ideal S1048576x32 .f32) (T : IVec S1048576 32) (A : FVec Ideal S32 .f32)
    (n : Fin 1048576) (h : 0 ≤ (T (ix1 n)).toInt ∧ (T (ix1 n)).toInt < 32) :
    val_main_v19 (F := Ideal) X T A (ix1 n)
      = Cert.Focal.termR (fun k => X (ix2 n k)) (Cert.Focal.wts A) (Cert.Focal.cls (T (ix1 n))) := by
  rw [val_main_v19_apply, val_main_v18_apply, weight_apply T A n h, val_main_v17_apply, val_main_v15_apply,
    val_main_v14_apply, val_main_cst_apply, val_main_v16_apply, val_main_cst_1_apply, val_main_v6_apply,
    val_main_v5_apply, ce_apply X T n h]
  show Cert.Focal.wts A (Cert.Focal.cls (T (ix1 n)))
      * Ideal.pow (Ideal.ofBits .f32 0x3F800000#32
          - Ideal.exp (-(-(Cert.Focal.logp (fun k => X (ix2 n k)) (Cert.Focal.cls (T (ix1 n)))))))
        (Ideal.ofBits .f32 0x40000000#32)
      * (-(Cert.Focal.logp (fun k => X (ix2 n k)) (Cert.Focal.cls (T (ix1 n))))) = _
  rw [Ideal.ofBits_one_f32, ofBits_two_f32]
  rfl

/-- A sum over a rank-1 index set is the sum over its coordinate. -/
theorem sum_idx1 {M : Type*} [AddCommMonoid M] {m : Nat} (f : (⟨1, ![m]⟩ : Shape).Idx → M) :
    ∑ i, f i = ∑ a : Fin m, f (ix1 a) := by
  let e : (⟨1, ![m]⟩ : Shape).Idx ≃ Fin m :=
    { toFun := fun i => i 0, invFun := ix1, left_inv := fun i => (eq_ix1 i).symm, right_inv := fun _ => rfl }
  rw [← Equiv.sum_comp e.symm f]
  rfl

/-- THE REFERENCE'S RESULT: for classes in range it is the batch loss, the mean of the focal terms. -/
theorem ref_value (X : FVec Ideal S1048576x32 .f32) (T : IVec S1048576 32) (A : FVec Ideal S32 .f32)
    (hT : ∀ n : Fin 1048576, 0 ≤ (T (ix1 n)).toInt ∧ (T (ix1 n)).toInt < 32) :
    val_main_v21 (F := Ideal) X T A = fun _ => Cert.Focal.total X T A := by
  funext i
  rw [val_main_v21_apply, val_main_v20_apply, val_main_cst_2_apply, val_main_cst_3_apply]
  show Ideal.div (Ideal.ofBits .f32 0x00000000#32 + ∑ j : S1048576.Idx, val_main_v19 (F := Ideal) X T A j)
    (Ideal.ofBits .f32 0x49800000#32) = Cert.Focal.total X T A
  rw [Ideal.ofBits_zero_f32, zero_add, sum_idx1]
  unfold Cert.Focal.total
  refine congrArg (fun s => Ideal.div s Cert.Focal.scale) (Finset.sum_congr rfl fun n _ => ?_)
  have hn : (⟨n.val % 1048576, Nat.mod_lt _ (by norm_num)⟩ : Fin 1048576) = n :=
    Fin.ext (Nat.mod_eq_of_lt n.isLt)
  rw [term_apply X T A n (hT n)]
  unfold Cert.Focal.rowN Cert.Focal.tgtN
  rw [hn]

end Cert.Focal.Ref

end
-- ==== Proof.lean ====
/-
  The focal loss kernel against its reference, over the extended reals.

  Both programs compute the mean over 1048576 samples of a t * (1 - p)^2 * ce, with ce the cross-entropy of the sample's
  row of 32 logits at its class t, p = exp (-ce) and a the class weights. The reference takes the log-softmax of the whole
  array, picks the class entry and the weight by gathers, and sums all samples at once. The kernel walks the batch in 128
  blocks of 8192 rows: per row it takes the log-softmax, picks the class entry and the weight by a one-hot mask summed
  over the 32 classes, clamps 1 - p at zero before squaring it, sums the block and adds that to an accumulator it carries
  across the grid; the last point divides by the sample count.

  The two agree where every logit is finite and every class word lies in [0, 32): there the masked sums are the gathered
  entries, 0 < p <= 1 makes the clamp idle and the real power a square, and a sum of block sums is the sum. Outside
  that range of classes the reference wraps negative classes and yields its fill value for classes of 32 and more, while
  the kernel's mask is empty; the precondition therefore carries the class range beside the finiteness of the floats.

  The kernel's side: the accumulator after each grid point (KChain), the result array and the scalar read off the run
  (KRun), the body's arithmetic at an index (Payloads) and the running sum it amounts to (KIdeal). The reference's side:
  its run stage by stage (RefRun) and its stages read at an index (RefValue). The law joining them is RowLaw; what the
  precondition says of the inputs is PreFacts.
-/
import proofs.«415715_j34703335751859_4_alg».proof.Defs
import proofs.«415715_j34703335751859_4_alg».proof.Proof.Gen.Kernel
import proofs.«415715_j34703335751859_4_alg».proof.Proof.Gen.Kernel.Frame
import proofs.«415715_j34703335751859_4_alg».proof.Proof.Gen.KernelIdeal
import proofs.«415715_j34703335751859_4_alg».proof.Proof.Gen.KernelIdeal.Frame
import proofs.«415715_j34703335751859_4_alg».proof.Proof.Gen.ReferenceIdeal
import proofs.«415715_j34703335751859_4_alg».proof.Proof.Gen.Pre_finite_inputs
import proofs.«415715_j34703335751859_4_alg».proof.Proof.KRun
import proofs.«415715_j34703335751859_4_alg».proof.Proof.KIdeal
import proofs.«415715_j34703335751859_4_alg».proof.Proof.RowLaw
import proofs.«415715_j34703335751859_4_alg».proof.Proof.PreFacts
import proofs.«415715_j34703335751859_4_alg».proof.Proof.RefRun
import proofs.«415715_j34703335751859_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.Focal.RefRun.ref_run (F := Ideal) m ρ)

/-- From memories agreeing on the arguments, under the precondition, both programs end at the batch loss as the blocks
    accumulate it: the kernel by its run read back, the reference because its one sum over all samples of the gathered
    terms equals the accumulated sum of the masked terms on finite logits and classes in range. -/
theorem algebraic : Cert.algebraic_KernelIdeal_ReferenceIdeal := by
  intro m ρ m' ρ' hpre hagree
  have hf := fun c => Cert.Focal.facts_of_pre _ _ _ (hpre c)
  refine ⟨fun c => fun _ => Cert.Focal.totalK (Cert.Focal.KIdeal.Xa m c) (Cert.Focal.KIdeal.Ta m c) (Cert.Focal.KIdeal.Aa m c), ?_, ?_⟩
  · refine (θ_run Cert.KernelIdeal.defs _ _).mono (fun _ h c => ⟨(h c).1.trans ?_, (h c).2⟩)
      (Cert.Focal.KChain.run (F := Ideal) m ρ)
    funext i
    exact Cert.Focal.KIdeal.result_apply m c _
  · refine (θ_run Cert.ReferenceIdeal.defs _ _).mono (fun _ h c => ⟨(h c).1.trans ?_, (h c).2⟩)
      (Cert.Focal.RefRun.ref_run (F := Ideal) m' ρ')
    rw [(hagree c).1, (hagree c).2.1, (hagree c).2.2, Cert.Focal.Ref.ref_value _ _ _ (hf c).2]
    funext i
    exact (Cert.Focal.totalK_eq_total _ _ _ (hf c).1 (hf c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
